-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S512x256 : Shape := ⟨2, ![512, 256]⟩
abbrev S2 : Shape := ⟨1, ![2]⟩
abbrev S_ : Shape := ⟨0, ![]⟩
abbrev S128x256 : Shape := ⟨2, ![128, 256]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .bf16⟩
  | .local _ .vmem, ⟨0, _⟩ => ⟨S256x256, .f32⟩
  | .local _ .vmem, ⟨1, _⟩ => ⟨S512x256, .bf16⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32 : BitVec 32 := 256#32
  let v17 : BitVec 32 := Scalar.muli v5 c256_i32
  let v21 : Index := Scalar.indexCast v17
  let c0_9 : Index := 0#32
  ![v21.toNat, 0]
def k0_off2 (d0 : Dev nD) (c0_i32_12 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_11 : BitVec 32 := 256#32
  let v23 : BitVec 32 := Scalar.muli v5 c256_i32_11
  let v24 : BitVec 32 := Scalar.addi v23 c0_i32_12
  let c0_i32_19 : BitVec 32 := 0#32
  ![v24.toNat, 0]
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32_16 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_17 : BitVec 32 := 2#32
  let v27 : BitVec 32 := Scalar.muli v9 c2_i32_17
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v29 : BitVec 32 := Scalar.muli v8 c1_i32_18
  let v30 : BitVec 32 := Scalar.addi v28 v29
  v30.toNat
def k0_off3 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_21 : BitVec 32 := 256#32
  let v37 : BitVec 32 := Scalar.muli v5 c256_i32_21
  let c128_i32 : BitVec 32 := 128#32
  let v38 : BitVec 32 := Scalar.addi v37 c128_i32
  let v42 : Index := Scalar.indexCast v38
  let c0_23 : Index := 0#32
  ![v42.toNat, 0]
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v44 : BitVec 32 := Scalar.muli v2 c4_i32_26
  let v45 : BitVec 32 := Scalar.addi c0_i32_27 v44
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_28 : BitVec 32 := 2#32
  let v46 : BitVec 32 := Scalar.muli v9 c2_i32_28
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v48 : BitVec 32 := Scalar.muli v8 c1_i32_29
  let v49 : BitVec 32 := Scalar.addi v47 v48
  v49.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S128x256_0_0 : ∀ a, (![0, 0] : Fin 2 → Nat) a + S128x256.size a ≤ S256x256.size a
  h_S128x256 : 0 < S128x256.numel
  shapeCasts_S128x256_S128x256 : S128x256.ShapeCasts S128x256
  bitsLt_bf16_f32 : FTy.bits .bf16 < FTy.bits .f32
  inb_S2_S1_0 : ∀ a, (![0] : Fin 1 → Nat) a + S1.size a ≤ S2.size a
  squeezes_S1_S_ : S1.Squeezes S_
  inb_S256x256_S128x256_128_0 : ∀ a, (![128, 0] : Fin 2 → Nat) a + S128x256.size a ≤ S256x256.size a
  inb_S2_S1_1 : ∀ a, (![1] : Fin 1 → Nat) a + S1.size a ≤ S2.size a
  hcc0_scratch0 : 2 + S2.numel ≤ 6
  hcc0_scratch1 : 4 + S2.numel ≤ 6
  k0_dev1_lt : ∀ d0 : Dev nD, (k0_dev1 d0) < nD
  k0_off1_inb : ∀ d0 : Dev nD, ∀ a, (k0_off1 d0) a + S128x256.size a ≤ S512x256.size a
  k0_off1_packedbf16 : ∀ d0 : Dev nD, (Rect.unit (s := S512x256) (k0_off1 d0) S128x256.size (k0_off1_inb d0)).PackedRows (EltTy.packing .bf16)
  k0_off2_inb : ∀ d0 : Dev nD, ∀ (r : Fin 2), ∀ a, (k0_off2 d0 (BitVec.ofNat 32 (128 * r.val))) a + S128x256.size a ≤ S512x256.size a
  k0_off2_wordsbf16 : ∀ d0 : Dev nD, ∀ (r : Fin 2), (Rect.unit (s := S512x256) (k0_off2 d0 (BitVec.ofNat 32 (128 * r.val))) S128x256.size (k0_off2_inb d0 r)).WholeWords (EltTy.packing .bf16)
  k0_dev2_lt : ∀ d0 : Dev nD, (k0_dev2 d0) < nD
  k0_off3_inb : ∀ d0 : Dev nD, ∀ a, (k0_off3 d0) a + S128x256.size a ≤ S512x256.size a
  k0_off3_packedbf16 : ∀ d0 : Dev nD, (Rect.unit (s := S512x256) (k0_off3 d0) S128x256.size (k0_off3_inb d0)).PackedRows (EltTy.packing .bf16)
  k0_dev3_lt : ∀ d0 : Dev nD, (k0_dev3 d0) < nD
  hstage0_0 : ∀ j, (stage0_0 j).IsWhole
  hstage0_1 : ∀ j, (stage0_1 j).IsWhole

variable [Facts₀]

abbrev cc0_scratch0 : DmaSems sig S2 := SemArray.consecutive 2 S2 hcc0_scratch0
abbrev cc0_scratch1 : DmaSems sig S2 := SemArray.consecutive 4 S2 hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩

abbrev nBuf : Space → Nat
  | .hbm => 2
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Contents.lean ====
/-
  The all-gather along the mesh's second axis, two devices a pair: the protocol.

  Each device holds a block of 256 rows of the array and ends with all 512 rows: its own block, changed to
  the narrower float format, in the half of the result its second mesh coordinate names, and its partner's
  block in the other half. The partner of a device differs from it in the second mesh coordinate only.
  Every device writes its own half in two chunks of 128 rows and sends each chunk into the same rows of its
  partner's result buffer; before its first transfer it has waited for its partner's signal, by which the
  partner gives it the rows it will write.

  This module: the partner map, the four chunks of the result buffer, and what the buffer ends up holding as ONE
  function of the index.
-/
import proofs.«900665_g7700000000000666_dist_ag_v7x_xyz2x2x2_y_m256_n256_bf16_1_alg».proof.Proof.Gen.KernelIdeal
import proofs.«900665_g7700000000000666_dist_ag_v7x_xyz2x2x2_y_m256_n256_bf16_1_alg».proof.Proof.Gen.KernelIdeal.Skeleton
import proofs.«900665_g7700000000000666_dist_ag_v7x_xyz2x2x2_y_m256_n256_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty a round, named by `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner -/

/-- A device's coordinate on the mesh's second axis: which half of the result its own block goes to. -/
def yv (c : Dev nD) : ℕ := (c.val / 2) % 2

/-- The device that differs from `c` in the second mesh coordinate only. -/
def peer (c : Dev nD) : Dev nD :=
  ⟨(4 * (c.val / 4) + (c.val % 2) + 2) - 2 * ((c.val / 2) % 2), by have h : c.val < 8 := c.isLt; show _ < 8; omega⟩

theorem peer_peer : ∀ c : Dev nD, peer (peer c) = c := by decide
theorem yv_lt (c : Dev nD) : yv c < 2 := Nat.mod_lt _ (by decide)
theorem yv_peer : ∀ c : Dev nD, yv (peer c) = 1 - yv c := by decide

/-- The three device chains of the kernel (the signal and the two transfers) all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-- Of a device and its partner, the one whose own block goes to half `h` of the result. -/
def srcDev (c : Dev nD) (h : Fin 2) : Dev nD := if yv c = h.val then c else peer c

theorem srcDev_peer : ∀ (c : Dev nD) (h : Fin 2), srcDev (peer c) h = srcDev c h := by decide
theorem srcDev_self : ∀ c : Dev nD, srcDev c ⟨yv c, yv_lt c⟩ = c := by decide
theorem srcDev_other : ∀ c : Dev nD, srcDev c ⟨yv (peer c), yv_lt (peer c)⟩ = peer c := by decide

/-! ## The buffers and the chunks -/

abbrev xM : Memref sig .tc .vmem S256x256 .f32 := Memref.whole cc0_stg0_0
abbrev oM : Memref sig .tc .vmem S512x256 .bf16 := Memref.whole cc0_stg1_0

/-- Rows `128 k` to `128 k + 128` of the half of the result that is device `c`'s own. -/
abbrev slRect (c : Dev nD) (k : Fin 2) : Rect S512x256 :=
  Rect.unit (s := S512x256) (k0_off2 c (BitVec.ofNat 32 (128 * k.val))) S128x256.size (k0_off2_inb c k)

/-- Chunk `k` of the half of the result buffer that is device `c`'s own: the source of `c`'s transfer `k` and, on its
    partner's buffer, that transfer's destination. -/
def sl (c : Dev nD) (k : Fin 2) : Memref sig .tc .vmem S128x256 .bf16 := oM.slice (slRect c k) (fun _ => rfl)

/-- The first row of that chunk. -/
def rowLo (c : Dev nD) (k : Fin 2) : ℕ := 256 * yv c + 128 * k.val

theorem mem_slRect (c : Dev nD) (k : Fin 2) (i : S512x256.Idx) :
    i ∈ (slRect c k).set ↔ rowLo c k ≤ (i 0).val ∧ (i 0).val < rowLo c k + 128 := by
  unfold rowLo yv
  rw [Rect.mem_set_unit, k0_off2_eq c k, Fin.forall_fin_two]
  have h1 : (i 1).val < 256 := (i 1).isLt
  simp only [Matrix.cons_val_zero, Matrix.cons_val_one, Matrix.head_cons]
  show (_ ∧ _ < _ + 128) ∧ (0 ≤ _ ∧ _ < 0 + 256) ↔ _
  omega

theorem sl_set (c : Dev nD) (k : Fin 2) : (sl c k).view.set = (slRect c k).set := View.set_slice_whole _ _

/-- The two chunks of a device's own half are disjoint, so are those of its partner's half, and the two halves; the four
    chunks are the whole buffer. -/
theorem rect_disj (c : Dev nD) : Disjoint (slRect c 0).set (slRect c 1).set :=
  Finset.disjoint_left.mpr fun i h0 h1 => by
    rw [mem_slRect] at h0 h1; unfold rowLo at h0 h1; simp only [Fin.val_zero, Fin.val_one] at h0 h1; omega

theorem rect_half_disj (c : Dev nD) :
    Disjoint ((slRect c 0).set ∪ (slRect c 1).set) ((slRect (peer c) 0).set ∪ (slRect (peer c) 1).set) := by
  have hy := yv_peer c; have hl := yv_lt c
  refine Finset.disjoint_left.mpr fun i h0 h1 => ?_
  rw [Finset.mem_union, mem_slRect, mem_slRect] at h0 h1
  unfold rowLo at h0 h1; simp only [Fin.val_zero, Fin.val_one] at h0 h1
  omega

theorem rect_cover (c : Dev nD) :
    (Finset.univ : Finset S512x256.Idx)
      = ((slRect c 0).set ∪ (slRect c 1).set) ∪ ((slRect (peer c) 0).set ∪ (slRect (peer c) 1).set) := by
  have hy := yv_peer c; have hl := yv_lt c
  ext i
  have hi : (i 0).val < 512 := (i 0).isLt
  simp only [Finset.mem_univ, Finset.mem_union, mem_slRect, true_iff]
  unfold rowLo; simp only [Fin.val_zero, Fin.val_one]
  omega

theorem sl_disj (c : Dev nD) : Disjoint (sl c 0).view.set (sl c 1).view.set := by
  rw [sl_set, sl_set]; exact rect_disj c

theorem half_disj (c : Dev nD) :
    Disjoint ((sl c 0).view.set ∪ (sl c 1).view.set) ((sl (peer c) 0).view.set ∪ (sl (peer c) 1).view.set) := by
  rw [sl_set, sl_set, sl_set, sl_set]; exact rect_half_disj c

theorem sl_cover (c : Dev nD) :
    (Finset.univ : Finset S512x256.Idx)
      = ((sl c 0).view.set ∪ (sl c 1).view.set) ∪ ((sl (peer c) 0).view.set ∪ (sl (peer c) 1).view.set) := by
  rw [sl_set, sl_set, sl_set, sl_set]; exact rect_cover c

/-! ## Contents -/

/-- Device `c`'s block of the array, as its staging buffer holds it. -/
def xstg (c : Dev nD) : (cc0_stg0_0 : Ref sig .tc).ty.Contents (Elt F) :=
  (win0_0.blk (0 : Fin 1)).view.read (Elt F) (m ((c : Thread nD τ).loc main_arg0))

theorem xrect_inb : ∀ (k : Fin 2) a, (![128 * k.val, 0] : Fin 2 → Nat) a + S128x256.size a ≤ S256x256.size a := by decide

/-- Rows `128 k` to `128 k + 128` of a device's block. -/
abbrev xrect (k : Fin 2) : Rect S256x256 := Rect.unit (s := S256x256) ![128 * k.val, 0] S128x256.size (xrect_inb k)

/-- Those rows of device `c`'s block, -/
def half (c : Dev nD) (k : Fin 2) : Vec F S128x256 .f32 := xM.view.readAt (Elt F) (xrect k).toLoadRect (xstg m c)

/-- and what the kernel stores of them: each entry in the narrower format. -/
def pay (c : Dev nD) (k : Fin 2) : FVec F S128x256 .bf16 := k0_pay1 (half m c k)

/-- The row and the column of an index of the result buffer. -/
def rowOf (i : S512x256.Idx) : ℕ := (i 0).val
def colOf (i : S512x256.Idx) : ℕ := (i 1).val

/-- The whole result buffer as it ends on device `c` AND on its partner, as one function of the index: row `i` lies
    in half `i / 256`, which holds the block of the device of the pair whose second mesh coordinate is that, in
    chunk `(i / 128) % 2` of it, at row `i % 128` of the chunk. -/
def gath (c : Dev nD) : (cc0_stg1_0 : Ref sig .tc).ty.Contents (Elt F) := fun i =>
  pay m (srcDev c ⟨(rowOf i / 256) % 2, Nat.mod_lt _ (by decide)⟩) ⟨(rowOf i / 128) % 2, Nat.mod_lt _ (by decide)⟩
    (Shape.pair (⟨rowOf i % 128, Nat.mod_lt _ (by decide)⟩ : Fin 128) (⟨colOf i % 256, Nat.mod_lt _ (by decide)⟩ : Fin 256))

theorem gath_peer (c : Dev nD) : gath m (peer c) = gath m c := by
  funext i; unfold gath; rw [srcDev_peer]

/-- Where an index of a chunk lies in the buffer: its row further down by the chunk's first row, its column the same. -/
theorem emb_row (d : Dev nD) (k : Fin 2) (x : S128x256.Idx) : rowOf ((sl d k).view.emb x) = rowLo d k + (x 0).val := by
  show ((slRect d k).emb x 0 : Nat) = _
  rw [Rect.emb_apply]
  simp only [Rect.off_unit, Rect.stride_unit, k0_off2_eq d k, Matrix.cons_val_zero]
  unfold rowLo yv; omega

theorem emb_col (d : Dev nD) (k : Fin 2) (x : S128x256.Idx) : colOf ((sl d k).view.emb x) = (x 1).val := by
  show ((slRect d k).emb x 1 : Nat) = _
  rw [Rect.emb_apply]
  rw [Rect.off_unit, Rect.stride_unit, k0_off2_eq d k]
  show 0 + 1 * (x 1).val = (x 1).val
  omega

theorem gath_apply (c : Dev nD) (i : S512x256.Idx) (d : Dev nD) (k : Fin 2) (x : S128x256.Idx)
    (hd : srcDev c ⟨(rowOf i / 256) % 2, Nat.mod_lt _ (by decide)⟩ = d) (hk : (rowOf i / 128) % 2 = k.val)
    (hr : rowOf i % 128 = (x 0).val) (hc : colOf i % 256 = (x 1).val) : gath m c i = pay m d k x := by
  unfold gath
  have e2 : (⟨(rowOf i / 128) % 2, Nat.mod_lt _ (by decide)⟩ : Fin 2) = k := Fin.ext hk
  have e3 : Shape.pair (⟨rowOf i % 128, Nat.mod_lt _ (by decide)⟩ : Fin 128) (⟨colOf i % 256, Nat.mod_lt _ (by decide)⟩ : Fin 256) = x := by
    rw [← Shape.pair_eta x]
    congr 1
    · exact Fin.ext hr
    · exact Fin.ext hc
  rw [hd, e2, e3]

/-- At an index of chunk `k` of the own half of `d` — `d` the device itself or its partner — the gathered buffer holds
    what `d` stores there. -/
theorem gath_at (c d : Dev nD) (hsrc : srcDev c ⟨yv d, yv_lt d⟩ = d) (k : Fin 2) (x : S128x256.Idx) :
    gath m c ((sl d k).view.emb x) = pay m d k x := by
  have h0 := emb_row d k x; have h1 := emb_col d k x
  have hx : (x 0).val < 128 := (x 0).isLt
  have hx1 : (x 1).val < 256 := (x 1).isLt
  have hy := yv_lt d; have hk := k.isLt
  unfold rowLo at h0
  have e : (⟨(rowOf ((sl d k).view.emb x) / 256) % 2, Nat.mod_lt _ (by decide)⟩ : Fin 2) = ⟨yv d, yv_lt d⟩ :=
    Fin.ext (by show _ % 2 = yv d; rw [h0]; omega)
  exact gath_apply m c _ d k x ((congrArg (srcDev c) e).trans hsrc) (by rw [h0]; omega) (by rw [h0]; omega) (by rw [h1]; omega)

/-- So a chunk just stored by its owner, whatever the buffer held, agrees with the gathered buffer on the chunk; -/
theorem stored_congr (c d : Dev nD) (hsrc : srcDev c ⟨yv d, yv_lt d⟩ = d) (k : Fin 2) (fd : (sl d k).view.ty.Contents (Elt F)) :
    ∀ i ∈ (sl d k).view.set, (sl d k).view.write (Elt F) fd (pay m d k) Finset.univ i = gath m c i := by
  intro i hi
  obtain ⟨x, rfl⟩ := View.exists_emb_of_mem_set _ hi
  exact (View.write_emb_of_mem (v := (sl d k).view) fd (pay m d k) (Finset.mem_univ x)).trans
    ((cast_eq _ _).trans (gath_at m c d hsrc k x).symm)

/-- and a chunk of the gathered buffer copied over the same chunk of any buffer agrees with the gathered buffer there. -/
theorem copied_congr (c d : Dev nD) (k : Fin 2) (fd : (sl d k).view.ty.Contents (Elt F)) :
    ∀ i ∈ (sl d k).view.set, (sl d k).view.write (Elt F) fd ((sl d k).view.read (Elt F) (gath m c)) Finset.univ i = gath m c i := by
  intro i hi
  obtain ⟨x, rfl⟩ := View.exists_emb_of_mem_set _ hi
  exact (View.write_emb_of_mem (v := (sl d k).view) fd ((sl d k).view.read (Elt F) (gath m c)) (Finset.mem_univ x)).trans
    ((cast_eq _ _).trans ((View.read_apply (v := (sl d k).view) (gath m c) x).trans (cast_eq _ _)))

end Cert.KernelIdeal.Gather

end
-- ==== Proof.Schedule.lean ====
/-
  The all-gather's protocol under the rounds discipline: five semaphore cells a device, each with ONE duty, all
  in round 0.

  * the barrier cell of device `c`: its partner's signal, one unit, which hands `c` the two chunks of the partner's
    buffer that `c`'s transfers will write (rows of `c`'s own half there), at whatever they hold;
  * the send cell of transfer `k`: the transfer's own credit once the source is read: the source chunk back, holding
    its part of the gathered buffer;
  * the receive cell of transfer `k`: the partner's transfer `k` landing: chunk `k` of the partner's half of `c`'s
    buffer, holding its part of the gathered buffer.

  A device signals first (owing nothing to anybody before that but the signal and its two transfers), waits on its
  barrier cell while it still owes the two transfers, and waits on its send and receive cells owing nothing: so the
  barrier cells lie below the receive cells, and everything else lower still.
-/
import proofs.«900665_g7700000000000666_dist_ag_v7x_xyz2x2x2_y_m256_n256_bf16_1_alg».proof.Proof.Contents

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The runtime's barrier semaphore; transfer `k`'s send semaphore and receive semaphore. -/
abbrev barS : Sem sig := (SemArray.scalar (sig.barrier 0 rfl) : Sems sig S_).sem
abbrev sendS (k : Fin 2) : DmaSem sig := ⟨2 + k.val, by have := k.isLt; show _ < 6; omega⟩
abbrev recvS (k : Fin 2) : DmaSem sig := ⟨4 + k.val, by have := k.isLt; show _ < 6; omega⟩

/-- What a semaphore is in the protocol. -/
inductive Role where
  | bar
  | send (k : Fin 2)
  | recv (k : Fin 2)
  deriving DecidableEq

def roleSem : Role → SemLoc sig
  | .bar => .reg barS
  | .send k => .dma (sendS k)
  | .recv k => .dma (recvS k)

def roleOf : SemLoc sig → Option Role
  | .reg s => if s = barS then some .bar else none
  | .dma q => if q.val = 2 then some (.send 0) else if q.val = 3 then some (.send 1)
      else if q.val = 4 then some (.recv 0) else if q.val = 5 then some (.recv 1) else none

theorem roleOf_roleSem : ∀ r : Role, roleOf (roleSem r) = some r := by
  intro r
  cases r with
  | bar => exact (if_pos rfl : (if (barS : Sem sig) = barS then some Role.bar else none) = some Role.bar)
  | send k => fin_cases k <;> rfl
  | recv k => fin_cases k <;> rfl

theorem roleSem_injective : Function.Injective roleSem := fun a b h =>
  Option.some.inj (by rw [← roleOf_roleSem a, ← roleOf_roleSem b, h])

abbrev cell (c : Dev nD) (r : Role) : GSem nD τ sig := ((c : Thread nD τ), roleSem r)
abbrev barCell (c : Dev nD) : GSem nD τ sig := ((c : Thread nD τ), .reg barS)
abbrev sendCell (c : Dev nD) (k : Fin 2) : GSem nD τ sig := ((c : Thread nD τ), .dma (sendS k))
abbrev recvCell (c : Dev nD) (k : Fin 2) : GSem nD τ sig := ((c : Thread nD τ), .dma (recvS k))

theorem barCell_eq (c : Dev nD) : barCell c = cell c .bar := rfl
theorem sendCell_eq (c : Dev nD) (k : Fin 2) : sendCell c k = cell c (.send k) := rfl
theorem recvCell_eq (c : Dev nD) (k : Fin 2) : recvCell c k = cell c (.recv k) := rfl

/-- The units a transfer of one chunk credits. -/
abbrev N : ℕ := (sl (0 : Dev nD) 0).view.dmaCredit
theorem N_pos : 0 < N := View.dmaCredit_pos _ (by decide)
theorem sl_credit (c : Dev nD) (k : Fin 2) : (sl c k).view.dmaCredit = N := rfl

/-! ## What the units hand over -/

/-- Chunk `k` of the own half of `c`, on device `d`'s buffer, holding `f` there. -/
def slotPts (d c : Dev nD) (k : Fin 2) (f : Buf (Elt F) ((sl c k).view.loc (d : Thread nD τ))) : sProp 𝕄 :=
  (sl c k).view.loc (d : Thread nD τ) ↦[(sl c k).view.set]{fullShare} f

omit [FloatOps F] in
instance slotPts_storable (d c : Dev nD) (k : Fin 2) (f) : BI.Storable (upEmb : UEmb _ 𝕄) (slotPts (F := F) d c k f) := by
  unfold slotPts; infer_instance

/-- The partner's signal hands `c` the two chunks of the partner's buffer it will write, at whatever they hold. -/
def barPay (c : Dev nD) : sProp 𝕄 := iprop((∃ f, slotPts (peer c) c 0 f) ∗ ∃ f, slotPts (peer c) c 1 f)
/-- A transfer's send credit hands back its source, holding its part of the gathered buffer. -/
def sendPay (c : Dev nD) (k : Fin 2) : sProp 𝕄 := slotPts c c k (gath m c)
/-- The partner's transfer landing hands `c` that chunk of its own buffer, holding its part of the gathered buffer. -/
def recvPay (c : Dev nD) (k : Fin 2) : sProp 𝕄 := slotPts c (peer c) k (gath m c)

instance barPay_storable (c : Dev nD) : BI.Storable (upEmb : UEmb _ 𝕄) (barPay (F := F) c) := by unfold barPay; infer_instance
instance sendPay_storable (c : Dev nD) (k : Fin 2) : BI.Storable (upEmb : UEmb _ 𝕄) (sendPay m c k) := slotPts_storable c c k (gath m c)
instance recvPay_storable (c : Dev nD) (k : Fin 2) : BI.Storable (upEmb : UEmb _ 𝕄) (recvPay m c k) := slotPts_storable c (peer c) k (gath m c)

/-- One round, round 0, one duty a cell: a barrier cell's of one unit, a send or receive cell's of a chunk's credit. -/
def sched : Rounds.Schedule (GSem nD τ sig) Unit 𝕄 where
  duties g r := if r = 0 ∧ g.1.2 = .tc ∧ (roleOf g.2).isSome then {()} else ∅
  amount g _ _ := match roleOf g.2 with
    | some .bar => 1
    | _ => N
  payload g _ _ := match roleOf g.2 with
    | some .bar => barPay g.1.1
    | some (.send k) => sendPay m g.1.1 k
    | some (.recv k) => recvPay m g.1.1 k
    | none => iprop(emp)
  amount_pos g _ _ _ := by
    split
    · exact Nat.one_pos
    · exact N_pos

instance sched_payload_storable (g : GSem nD τ sig) (r : ℕ) (d : Unit) :
    BI.Storable (upEmb : UEmb _ 𝕄) ((sched (F := F) m).payload g r d) := by
  show BI.Storable upEmb (match roleOf g.2 with
    | some .bar => barPay g.1.1
    | some (.send k) => sendPay m g.1.1 k
    | some (.recv k) => recvPay m g.1.1 k
    | none => iprop(emp))
  split <;> infer_instance

section Tables
variable (c : Dev nD) (r : Role)

theorem duties_cell : (sched (F := F) m).duties (cell c r) 0 = {()} := by
  dsimp only [sched]; exact if_pos ⟨rfl, rfl, by rw [roleOf_roleSem]; rfl⟩
theorem duties_later (g : GSem nD τ sig) : ∀ r, 1 ≤ r → (sched (F := F) m).duties g r = ∅ :=
  fun r hr => by dsimp only [sched]; exact if_neg fun h => by omega

theorem duties_bar : (sched (F := F) m).duties (barCell c) 0 = {()} := by rw [barCell_eq]; exact duties_cell m c .bar
theorem duties_send (k : Fin 2) : (sched (F := F) m).duties (sendCell c k) 0 = {()} := by rw [sendCell_eq]; exact duties_cell m c (.send k)
theorem duties_recv (k : Fin 2) : (sched (F := F) m).duties (recvCell c k) 0 = {()} := by rw [recvCell_eq]; exact duties_cell m c (.recv k)
theorem amount_bar (d : Unit) : (sched (F := F) m).amount (barCell c) 0 d = 1 := by rw [barCell_eq]; dsimp only [sched]; rw [roleOf_roleSem]
theorem amount_send (k : Fin 2) (d : Unit) : (sched (F := F) m).amount (sendCell c k) 0 d = N := by rw [sendCell_eq]; dsimp only [sched]; rw [roleOf_roleSem]
theorem amount_recv (k : Fin 2) (d : Unit) : (sched (F := F) m).amount (recvCell c k) 0 d = N := by rw [recvCell_eq]; dsimp only [sched]; rw [roleOf_roleSem]

theorem expect_bar : (sched (F := F) m).expect (barCell c) 0 = 1 := by
  unfold Schedule.expect Schedule.amountOf; rw [duties_bar, Finset.sum_singleton, amount_bar]
theorem expect_send (k : Fin 2) : (sched (F := F) m).expect (sendCell c k) 0 = N := by
  unfold Schedule.expect Schedule.amountOf; rw [duties_send, Finset.sum_singleton, amount_send]
theorem expect_recv (k : Fin 2) : (sched (F := F) m).expect (recvCell c k) 0 = N := by
  unfold Schedule.expect Schedule.amountOf; rw [duties_recv, Finset.sum_singleton, amount_recv]

theorem payload_bar (d : Unit) : (sched (F := F) m).payload (barCell c) 0 d = barPay c := by rw [barCell_eq]; dsimp only [sched]; rw [roleOf_roleSem]
theorem payload_send (k : Fin 2) (d : Unit) : (sched (F := F) m).payload (sendCell c k) 0 d = sendPay m c k := by rw [sendCell_eq]; dsimp only [sched]; rw [roleOf_roleSem]
theorem payload_recv (k : Fin 2) (d : Unit) : (sched (F := F) m).payload (recvCell c k) 0 d = recvPay m c k := by rw [recvCell_eq]; dsimp only [sched]; rw [roleOf_roleSem]

/-- The rest of a cell's round, no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send (k : Fin 2) : bigSep ((sched (F := F) m).duties (sendCell c k) 0 \ ∅) (fun d => (sched (F := F) m).payload (sendCell c k) 0 d) = sendPay m c k := by
  rw [Finset.sdiff_empty, duties_send, bigSep_singleton, payload_send]
theorem rest_recv (k : Fin 2) : bigSep ((sched (F := F) m).duties (recvCell c k) 0 \ ∅) (fun d => (sched (F := F) m).payload (recvCell c k) 0 d) = recvPay m c k := by
  rw [Finset.sdiff_empty, duties_recv, bigSep_singleton, payload_recv]

end Tables

/-! ## What each device owes at launch; the levels -/

/-- After its signal a device still owes its partner's two receive cells a chunk's credit each; -/
def O₁ (c : Dev nD) : CellTallies nD τ sig Unit := tallyAt (recvCell (peer c) 1) () N + tallyAt (recvCell (peer c) 0) () N
/-- at launch also its partner's barrier cell one unit (summed so that each payment peels the last summand). -/
def O₀ (c : Dev nD) : CellTallies nD τ sig Unit := O₁ c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := match roleOf g.2 with
  | some .bar => 1
  | some (.recv _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by rw [barCell_eq]; unfold lv; rw [roleOf_roleSem]
theorem lv_recv (c : Dev nD) (k : Fin 2) (u : Unit) : lv (recvCell c k) u = 2 := by rw [recvCell_eq]; unfold lv; rw [roleOf_roleSem]

theorem O₁_pos {c : Dev nD} {g : GSem nD τ sig} {u : Unit} (h : 0 < O₁ c g u) : ∃ k, g = recvCell (peer c) k := by
  unfold O₁ at h
  rcases Pipeline.add_pos_cases h with h | h
  · exact ⟨1, (Pipeline.tallyAt_pos h).1⟩
  · exact ⟨0, (Pipeline.tallyAt_pos h).1⟩

theorem O₀_pos {c : Dev nD} {g : GSem nD τ sig} {u : Unit} (h : 0 < O₀ c g u) : (∃ k, g = recvCell (peer c) k) ∨ g = barCell (peer c) := by
  unfold O₀ at h
  rcases Pipeline.add_pos_cases h with h | h
  · exact .inl (O₁_pos h)
  · exact .inr (Pipeline.tallyAt_pos h).1

omit [FloatOps F] in
/-- A wait on a semaphore at level 0 (the pipeline's staging semaphores) is allowed whatever of `O₀` is still owed. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g i hg => ?_
    rcases O₀_pos hg with ⟨k, rfl⟩ | rfl
    · exact ⟨by rw [L_tc]; exact Finset.mem_singleton_self _, by rw [hsm, lv_recv]; decide⟩
    · exact ⟨by rw [L_tc]; exact Finset.mem_singleton_self _, by rw [hsm, lv_bar]; decide⟩
  · rw [MayWait_zero]; iintro -; iempintro

omit [FloatOps F] in
/-- At its barrier wait a device owes its partner's receive cells only, which lie above its barrier cell. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g i hg => by
    obtain ⟨k, rfl⟩ := O₁_pos hg
    exact ⟨by rw [L_tc]; exact Finset.mem_singleton_self _, by rw [lv_bar, lv_recv]; decide⟩

end Cert.KernelIdeal.Gather

end
-- ==== Proof.Data.lean ====
/-
  The all-gather's ghost state and the pipeline's proof data.

  What a device's body starts from: the invariants of the cells it touches (its own five, and its partner's
  barrier and receive cells, which it pays), its positions at round 0 of its own cells, the tokens of the five
  duties it pays (its partner's barrier duty, its partner's two receive duties, its own two send duties), that
  those cells have reached round 0, the credit of its three waits others pay (barrier, two receives), and the
  levels. What it ends with: its four own semaphores back at zero, its block unchanged in its staging buffer
  and the gathered array in the result's staging buffer.
-/
import proofs.«900665_g7700000000000666_dist_ag_v7x_xyz2x2x2_y_m256_n256_bf16_1_alg».proof.Proof.Schedule
import proofs.«900665_g7700000000000666_dist_ag_v7x_xyz2x2x2_y_m256_n256_bf16_1_alg».proof.Proof.Gen.KernelIdeal.Points

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells by number -/

/-- A device's five cells: barrier, send 0, send 1, receive 0, receive 1. -/
abbrev role : Fin 5 → Role := fun | 0 => .bar | 1 => .send 0 | 2 => .send 1 | 3 => .recv 0 | 4 => .recv 1
abbrev kcell (ck : Dev nD × Fin 5) : GSem nD τ sig := cell ck.1 (role ck.2)

/-- The kernel's OWN (scoped) semaphores, as the launch indexes them: send 0, send 1, receive 0, receive 1. -/
abbrev osem : Fin 4 → SemLoc sig := fun | 0 => .dma (sendS 0) | 1 => .dma (sendS 1) | 2 => .dma (recvS 0) | 3 => .dma (recvS 1)

/-! ## The ghost state -/

/-- The invariants of the cells device `c`'s body opens, under the names `K`. -/
def invs (K : Dev nD × Fin 5 → ℕ) (c : Dev nD) : sProp 𝕄 :=
  iprop(cellInv ER (sched m) (K (c, 0)) (barCell c)
    ∗ cellInv ER (sched m) (K (c, 1)) (sendCell c 0) ∗ cellInv ER (sched m) (K (c, 2)) (sendCell c 1)
    ∗ cellInv ER (sched m) (K (c, 3)) (recvCell c 0) ∗ cellInv ER (sched m) (K (c, 4)) (recvCell c 1)
    ∗ cellInv ER (sched m) (K (peer c, 0)) (barCell (peer c))
    ∗ cellInv ER (sched m) (K (peer c, 3)) (recvCell (peer c) 0) ∗ cellInv ER (sched m) (K (peer c, 4)) (recvCell (peer c) 1))

instance invs_persistent (K : Dev nD × Fin 5 → ℕ) (c : Dev nD) : BI.Persistent (invs m K c) := by unfold invs; infer_instance

/-- The ghost state device `c` starts from. -/
def ghost (K : Dev nD × Fin 5 → ℕ) (c : Dev nD) : sProp 𝕄 :=
  iprop(invs m K c
    ∗ atPos ER (barCell c) 0 ∅ 0 ∗ atPos ER (sendCell c 0) 0 ∅ 0 ∗ atPos ER (sendCell c 1) 0 ∅ 0
    ∗ atPos ER (recvCell c 0) 0 ∅ 0 ∗ atPos ER (recvCell c 1) 0 ∅ 0
    ∗ reached ER (barCell (peer c)) 0 ∗ reached ER (recvCell (peer c) 0) 0 ∗ reached ER (recvCell (peer c) 1) 0
    ∗ reached ER (sendCell c 0) 0 ∗ reached ER (sendCell c 1) 0
    ∗ dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())

/-- What device `c`'s body starts from: that at some names, its three credit tokens and the level facts. -/
def start (c : Dev nD) : sProp 𝕄 :=
  iprop((∃ K, ghost m K c) ∗ cred (tallyAt (barCell c) () 1) ∗ cred (tallyAt (recvCell c 0) () N) ∗ cred (tallyAt (recvCell c 1) () N)
    ∗ levAts L lv)

def Φ₀ (c : Dev nD) : sProp 𝕄 := start m c
/-- After the point: the four OWN cells at zero, closed (the barrier cell is the runtime's: nothing to hand back). -/
def Φ₁ (c : Dev nD) : sProp 𝕄 :=
  iprop(semVal (sendCell c 0) 0 ∗ semVal (sendCell c 1) 0 ∗ semVal (recvCell c 0) 0 ∗ semVal (recvCell c 1) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gath m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole, at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is proved from, the names of the invariants fixed, -/
def bodyPre (K : Dev nD × Fin 5 → ℕ) (c : Dev nD) : sProp 𝕄 :=
  iprop((ghost m K c ∗ cred (tallyAt (barCell c) () 1) ∗ cred (tallyAt (recvCell c 0) () N) ∗ cred (tallyAt (recvCell c 1) () N) ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- and what it is proved to. -/
def bodyPost (c : Dev nD) : sProp 𝕄 :=
  iprop(Φ₁ c ∗ (dats m 0 c).owesAt () t₀.succ ∗ stg c cc0_stg0_0 (xstg m c) ∗ stg c cc0_stg1_0 (gath m c))

end Cert.KernelIdeal.Gather

end
-- ==== Proof.Body.lean ====
/-
  The all-gather's body on one device: from the ghost state and the two staging buffers to the four own
  semaphores back at zero, the device's block unchanged and the gathered array in the result's staging buffer.

  The result buffer is cut into its four chunks at once. The two chunks of the partner's half go to the partner
  with the signal; the device's own two are loaded, stored over with its block's rows in the narrower format, and
  sent, each into the same rows of the partner's buffer, which came with the partner's signal. The four waits bring
  back the two own chunks (their sources read) and the partner's two (landed), every one holding its part of the
  gathered buffer, and the four are one buffer again.
-/
import proofs.«900665_g7700000000000666_dist_ag_v7x_xyz2x2x2_y_m256_n256_bf16_1_alg».proof.Proof.Data

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result buffer as its four chunks -/

omit [FloatOps F] in
theorem cover_eq (c : Dev nD) (f : Buf (Elt F) ((c : Thread nD τ).loc cc0_stg1_0)) :
    (((c : Thread nD τ).loc cc0_stg1_0) ↦{fullShare} f : sProp 𝕄)
      = ((c : Thread nD τ).loc cc0_stg1_0) ↦[((sl c 0).view.set ∪ (sl c 1).view.set) ∪ ((sl (peer c) 0).view.set ∪ (sl (peer c) 1).view.set)]{fullShare} f :=
  congrArg (fun S => (((c : Thread nD τ).loc cc0_stg1_0) ↦[S]{fullShare} f : sProp 𝕄)) (sl_cover c)

omit [FloatOps F] in
theorem split4 (c : Dev nD) (f : Buf (Elt F) ((c : Thread nD τ).loc cc0_stg1_0)) :
    (((c : Thread nD τ).loc cc0_stg1_0) ↦{fullShare} f : sProp 𝕄)
      ⊢ iprop(slotPts c c 0 f ∗ slotPts c c 1 f ∗ slotPts c (peer c) 0 f ∗ slotPts c (peer c) 1 f) := by
  rw [cover_eq]
  unfold slotPts
  refine (pointsTo_union (ℓ := (c : Thread nD τ).loc cc0_stg1_0) (q := fullShare) (f := f) (half_disj c)).1.trans
    ((BIClass.sep_mono (pointsTo_union (ℓ := (c : Thread nD τ).loc cc0_stg1_0) (q := fullShare) (f := f) (sl_disj c)).1
      (pointsTo_union (ℓ := (c : Thread nD τ).loc cc0_stg1_0) (q := fullShare) (f := f) (sl_disj (peer c))).1).trans ?_)
  iintro ⟨⟨H0, H1⟩, ⟨H2, H3⟩⟩
  isplitl [H0]; · iexact H0
  isplitl [H1]; · iexact H1
  isplitl [H2]; · iexact H2
  iexact H3

omit [FloatOps F] in
theorem join4 (c : Dev nD) (f : Buf (Elt F) ((c : Thread nD τ).loc cc0_stg1_0)) :
    iprop(slotPts c c 0 f ∗ slotPts c c 1 f ∗ slotPts c (peer c) 0 f ∗ slotPts c (peer c) 1 f)
      ⊢ (((c : Thread nD τ).loc cc0_stg1_0) ↦{fullShare} f : sProp 𝕄) := by
  rw [cover_eq]
  unfold slotPts
  refine (show _ ⊢ iprop(((((c : Thread nD τ).loc cc0_stg1_0) ↦[(sl c 0).view.set]{fullShare} f) ∗ (((c : Thread nD τ).loc cc0_stg1_0) ↦[(sl c 1).view.set]{fullShare} f))
      ∗ ((((c : Thread nD τ).loc cc0_stg1_0) ↦[(sl (peer c) 0).view.set]{fullShare} f) ∗ (((c : Thread nD τ).loc cc0_stg1_0) ↦[(sl (peer c) 1).view.set]{fullShare} f)) : sProp 𝕄) from ?_).trans
    ((BIClass.sep_mono (pointsTo_union (ℓ := (c : Thread nD τ).loc cc0_stg1_0) (q := fullShare) (f := f) (sl_disj c)).2
      (pointsTo_union (ℓ := (c : Thread nD τ).loc cc0_stg1_0) (q := fullShare) (f := f) (sl_disj (peer c))).2).trans
    (pointsTo_union (ℓ := (c : Thread nD τ).loc cc0_stg1_0) (q := fullShare) (f := f) (half_disj c)).2)
  iintro ⟨H0, H1, H2, H3⟩
  isplitl [H0 H1]
  · isplitl [H0]; · iexact H0
    iexact H1
  · isplitl [H2]; · iexact H2
    iexact H3

/-! ## The stores' rectangles are the chunks -/

theorem off1_eq (c : Dev nD) : k0_off1 c = k0_off2 c (BitVec.ofNat 32 (128 * (0 : Fin 2).val)) := by
  rw [k0_off1_eq, k0_off2_eq c 0]; funext a; fin_cases a <;> simp
theorem off3_eq (c : Dev nD) : k0_off3 c = k0_off2 c (BitVec.ofNat 32 (128 * (1 : Fin 2).val)) := by
  rw [k0_off3_eq, k0_off2_eq c 1]; funext a; fin_cases a <;> simp

theorem rect_congr {off off' : Fin 2 → Nat} (h : off = off') (inb : ∀ a, off a + S128x256.size a ≤ S512x256.size a)
    (inb' : ∀ a, off' a + S128x256.size a ≤ S512x256.size a) :
    Rect.unit (s := S512x256) off S128x256.size inb = Rect.unit (s := S512x256) off' S128x256.size inb' := by
  subst h; rfl

/-- The first store's rectangle is chunk 0 of the own half, the second's chunk 1. -/
abbrev st1 (c : Dev nD) : Rect S512x256 := Rect.unit (s := S512x256) (k0_off1 c) S128x256.size (k0_off1_inb c)
abbrev st3 (c : Dev nD) : Rect S512x256 := Rect.unit (s := S512x256) (k0_off3 c) S128x256.size (k0_off3_inb c)

theorem st1_set (c : Dev nD) : (oM.access (st1 c)).set = (sl c 0).view.set :=
  (View.set_slice_whole _ _).trans ((congrArg (fun r : Rect S512x256 => r.set) (rect_congr (off1_eq c) _ _)).trans (sl_set c 0).symm)
theorem st3_set (c : Dev nD) : (oM.access (st3 c)).set = (sl c 1).view.set :=
  (View.set_slice_whole _ _).trans ((congrArg (fun r : Rect S512x256 => r.set) (rect_congr (off3_eq c) _ _)).trans (sl_set c 1).symm)

theorem write_congr_off {off off' : Fin 2 → Nat} (h : off = off') (inb : ∀ a, off a + S128x256.size a ≤ S512x256.size a)
    (inb' : ∀ a, off' a + S128x256.size a ≤ S512x256.size a) (f : (cc0_stg1_0 : Ref sig .tc).ty.Contents (Elt F)) (w : S128x256.Idx → Elt F .bf16) :
    (oM.access (Rect.unit (s := S512x256) off S128x256.size inb)).write (Elt F) f w Finset.univ
      = (oM.access (Rect.unit (s := S512x256) off' S128x256.size inb')).write (Elt F) f w Finset.univ := by
  subst h; rfl

/-- After its store a chunk of the own half agrees with the gathered buffer. -/
theorem stored0 (c : Dev nD) (f : (cc0_stg1_0 : Ref sig .tc).ty.Contents (Elt F)) :
    ∀ i ∈ (sl c 0).view.set, (oM.access (st1 c)).write (Elt F) f (k0_pay1 (half m c 0)) Finset.univ i = gath m c i := by
  intro i hi
  rw [write_congr_off (off1_eq c) (k0_off1_inb c) (k0_off2_inb c 0)]
  exact stored_congr m c c (srcDev_self c) 0 f i hi
theorem stored1 (c : Dev nD) (f : (cc0_stg1_0 : Ref sig .tc).ty.Contents (Elt F)) :
    ∀ i ∈ (sl c 1).view.set, (oM.access (st3 c)).write (Elt F) f (k0_pay2 (half m c 1)) Finset.univ i = gath m c i := by
  intro i hi
  rw [write_congr_off (off3_eq c) (k0_off3_inb c) (k0_off2_inb c 1)]
  exact stored_congr m c c (srcDev_self c) 1 f i hi

/-- The semaphores the body names, as the cells name them. -/
theorem sem_send0 : ((SemArray.slice cc0_scratch0 (Rect.unit (s := S2) ![0] ![1] Facts₀.inb_S2_S1_0)).squeeze S_ Facts₀.squeezes_S1_S_).sem = sendS 0 := rfl
theorem sem_send1 : ((SemArray.slice cc0_scratch0 (Rect.unit (s := S2) ![1] ![1] Facts₀.inb_S2_S1_1)).squeeze S_ Facts₀.squeezes_S1_S_).sem = sendS 1 := rfl
theorem sem_recv0 : ((SemArray.slice cc0_scratch1 (Rect.unit (s := S2) ![0] ![1] Facts₀.inb_S2_S1_0)).squeeze S_ Facts₀.squeezes_S1_S_).sem = recvS 0 := rfl
theorem sem_recv1 : ((SemArray.slice cc0_scratch1 (Rect.unit (s := S2) ![1] ![1] Facts₀.inb_S2_S1_1)).squeeze S_ Facts₀.squeezes_S1_S_).sem = recvS 1 := rfl

/-- A chunk of the own half, named through the store's rectangle and back. -/
theorem to_st1 (c : Dev nD) (f : Buf (Elt F) ((c : Thread nD τ).loc cc0_stg1_0)) :
    (slotPts c c 0 f : sProp 𝕄) ⊢ ((oM.access (st1 c)).loc (c : Thread nD τ) ↦[(sl c 0).view.set]{fullShare} f) := Entails.of_eq rfl
theorem to_st3 (c : Dev nD) (f : Buf (Elt F) ((c : Thread nD τ).loc cc0_stg1_0)) :
    (slotPts c c 1 f : sProp 𝕄) ⊢ ((oM.access (st3 c)).loc (c : Thread nD τ) ↦[(sl c 1).view.set]{fullShare} f) := Entails.of_eq rfl
theorem from_st1 (c : Dev nD) (f : Buf (Elt F) ((c : Thread nD τ).loc cc0_stg1_0)) :
    ((oM.access (st1 c)).loc (c : Thread nD τ) ↦[(sl c 0).view.set]{fullShare} ((oM.access (st1 c)).write (Elt F) f (k0_pay1 (xM.view.readAt (Elt F) (Rect.unit (s := S256x256) ![0, 0] ![128, 256] Facts₀.inb_S256x256_S128x256_0_0).toLoadRect (xstg m c))) Finset.univ) : sProp 𝕄)
      ⊢ slotPts c c 0 (gath m c) := Entails.of_eq (pointsTo_congr (stored0 m c f))
theorem from_st3 (c : Dev nD) (f : Buf (Elt F) ((c : Thread nD τ).loc cc0_stg1_0)) :
    ((oM.access (st3 c)).loc (c : Thread nD τ) ↦[(sl c 1).view.set]{fullShare} ((oM.access (st3 c)).write (Elt F) f (k0_pay2 (xM.view.readAt (Elt F) (Rect.unit (s := S256x256) ![128, 0] ![128, 256] Facts₀.inb_S256x256_S128x256_128_0).toLoadRect (xstg m c))) Finset.univ) : sProp 𝕄)
      ⊢ slotPts c c 1 (gath m c) := Entails.of_eq (pointsTo_congr (stored1 m c f))

/-- The two chunks of the partner's half make the payload of the signal to the partner. -/
theorem bar_pay_intro (c : Dev nD) (f : Buf (Elt F) ((c : Thread nD τ).loc cc0_stg1_0)) :
    iprop(slotPts c (peer c) 0 f ∗ slotPts c (peer c) 1 f) ⊢ ((sched m).payload (barCell (peer c)) 0 () : sProp 𝕄) := by
  rw [payload_bar]; unfold barPay; rw [peer_peer]
  iintro ⟨H0, H1⟩
  isplitl [H0]; · iexists f; iexact H0
  iexists f; iexact H1

/-! ## The transfer of one chunk -/

theorem mem_bar (c : Dev nD) : () ∈ (sched (F := F) m).duties (barCell c) 0 := by
  rw [duties_bar]; exact Finset.mem_singleton_self _
theorem mem_send (c : Dev nD) (k : Fin 2) : () ∈ (sched (F := F) m).duties (sendCell c k) 0 := by
  rw [duties_send]; exact Finset.mem_singleton_self _
theorem mem_recv (c : Dev nD) (k : Fin 2) : () ∈ (sched (F := F) m).duties (recvCell c k) 0 := by
  rw [duties_recv]; exact Finset.mem_singleton_self _

/-- The transfer of chunk `k` to `n`, the partner (substituted, not rewritten): the source chunk holds its part of the
    gathered buffer, the destination chunk (the same rows of the partner's buffer) anything; the send cell's duty is
    paid with the source, the partner's receive cell's with the destination as it will be: its part of the gathered
    buffer, the same function on both devices. -/
theorem wp_send_chunk (c n : Dev nD) (hn : n = peer c) (k : Fin 2) (κs κr : ℕ)
    {hsc : (sl c k : Memref sig (Dev.tc n : Thread nD τ).2.kind .vmem S128x256 .bf16).view.ref.isScScratch = false}
    {hsrc : (sl c k : Memref sig .tc .vmem S128x256 .bf16).view.WordExact} {hdst : (sl c k : Memref sig .tc .vmem S128x256 .bf16).view.WordExact}
    {hsem : DmaTarget.Typed .vmem (.dma (recvS k)) (.remote (Dev.tc n : Thread nD τ) (sl c k : Memref sig .tc .vmem S128x256 .bf16) (.dma (sendS k)) hsc)}
    {α : Type} {Q : α → sProp 𝕄} {kont : PUnit → Prog (TpuEff nD τ sig (Elt F) Λ₀ .tc) α}
    (fn : Buf (Elt F) ((sl c k).view.loc (peer c : Thread nD τ))) (O₀' O : CellTallies nD τ sig Unit)
    (hO : O₀' = O + tallyAt (recvCell (peer c) k) () N) (W : Waits sig Unit) :
    iprop(cellInv ER (sched m) κs (sendCell c k) ∗ cellInv ER (sched m) κr (recvCell (peer c) k)
        ∗ slotPts c c k (gath m c) ∗ slotPts (peer c) c k fn
        ∗ owes (c : Thread nD τ) O₀' W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl c k) (.remote (Dev.tc n : Thread nD τ) (sl c k) (.dma (sendS k)) hsc) (.dma (recvS k)) hsrc hdst hsem) kont) Q) := by
  subst hn
  unfold slotPts
  exact Rounds.wp_send_pointsTo 𝒱₀ ER (sched m) (c : Thread nD τ) none (κ₁ := κs) (κ₂ := κr)
    (r₁ := 0) (r₂ := 0) (d₁ := ()) (d₂ := ()) (fd := fn)
    (mem_send m c k) (mem_recv m (peer c) k)
    () () N rfl (amount_send m c k ()) (amount_recv m (peer c) k ()) O hO (W := W)
    (by rw [payload_send]; exact BI.Entails.refl _)
    (by rw [payload_recv]; unfold recvPay slotPts; rw [peer_peer, gath_peer]
        exact Entails.of_eq (pointsTo_congr (copied_congr m c c k fn)))

/-! ## The body -/

section Body

variable (K : Dev nD × Fin 5 → ℕ)

set_option maxHeartbeats 1600000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  simp only [sem_send0, sem_send1, sem_recv0, sem_recv1]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1,
      HtBP, HtR0P, HtR1P, HtS0, HtS1⟩, HcB, HcR0, HcR1, #Hlev⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  -- the result buffer in its four chunks
  ihave H4 := (split4 c g1) $$ Hout
  icases H4 with ⟨Hc0, Hc1, Hp0, Hp1⟩
  -- the signal to the partner's barrier cell, with the two chunks of the partner's half
  iapply (Rounds.wp_signal 𝒱₀ ER (sched m) (c : Thread nD τ) none (dst := (peer c : Thread nD τ)) (κ := K (peer c, 0))
      (d := ()) (mem_bar m (peer c)) ((amount_bar m (peer c) ()).trans (by decide)) () (O₁ c) rfl)
    $$ [HO HtBP Hp0 Hp1]
  · isplitr; · iexact HIbarP
    isplitl [HO]; · iexact HO
    isplitl [HtBP]; · iexact HtBP
    isplitl [Hp0 Hp1]
    · iapply (bar_pay_intro m c g1)
      isplitl [Hp0]; · iexact Hp0
      iexact Hp1
    · iexact HrBP
  iintro HO
  -- rows 0..128 of the block, loaded; chunk 0 of the own half loaded, then stored over
  iapply (wp_load 𝒱₀ (c : Thread nD τ) none Set.univ (m := xM) (Finset.subset_univ _)) $$ Hx; iintro Hx
  ihave Hc0 := (to_st1 c g1) $$ Hc0
  iapply (wp_load_rect 𝒱₀ (c : Thread nD τ) none Set.univ (m := oM) (r := st1 c) (S := (sl c 0).view.set) (st1_set c).subset) $$ Hc0; iintro Hc0
  iapply (wp_store 𝒱₀ (c : Thread nD τ) none Set.univ (m := oM) (r := st1 c) (Mk := Finset.univ) (S := (sl c 0).view.set)
    (by rw [View.setOn_univ]; exact (st1_set c).subset)) $$ Hc0; iintro Hc0
  ihave Hc0 := (from_st1 m c g1) $$ Hc0
  -- the wait on the own barrier cell, the two transfers still owed: the partner's two chunks come with it
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by show 0 + _ = (sched m).expect (barCell c) 0; rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn0, Hq0⟩, ⟨%fn1, Hq1⟩⟩
  -- transfer 0
  unfold O₁
  iapply (wp_send_chunk m c _ (dev2_eq c) 0 (K (c, 1)) (K (peer c, 3)) fn0 _ (tallyAt (recvCell (peer c) 1) () N) rfl
      (insert (SemLoc.reg barS, ()) W)) $$ [Hc0 Hq0 HO HtS0 HtR0P]
  · isplitr; · iexact HIs0
    isplitr; · iexact HIr0P
    isplitl [Hc0]; · iexact Hc0
    isplitl [Hq0]; · iexact Hq0
    isplitl [HO]; · iexact HO
    isplitl [HtS0]; · iexact HtS0
    isplitr; · iexact HrS0
    isplitl [HtR0P]; · iexact HtR0P
    iexact HrR0P
  iintro ⟨HcS0, HO⟩
  -- rows 128..256 of the block, loaded; chunk 1 of the own half loaded, then stored over
  iapply (wp_load 𝒱₀ (c : Thread nD τ) none Set.univ (m := xM) (Finset.subset_univ _)) $$ Hx; iintro Hx
  ihave Hc1 := (to_st3 c g1) $$ Hc1
  iapply (wp_load_rect 𝒱₀ (c : Thread nD τ) none Set.univ (m := oM) (r := st3 c) (S := (sl c 1).view.set) (st3_set c).subset) $$ Hc1; iintro Hc1
  iapply (wp_store 𝒱₀ (c : Thread nD τ) none Set.univ (m := oM) (r := st3 c) (Mk := Finset.univ) (S := (sl c 1).view.set)
    (by rw [View.setOn_univ]; exact (st3_set c).subset)) $$ Hc1; iintro Hc1
  ihave Hc1 := (from_st3 m c g1) $$ Hc1
  -- transfer 1
  iapply (wp_send_chunk m c _ (dev3_eq c) 1 (K (c, 2)) (K (peer c, 4)) fn1 _ 0 (zero_add _).symm
      (insert (SemLoc.reg barS, ()) W)) $$ [Hc1 Hq1 HO HtS1 HtR1P]
  · isplitr; · iexact HIs1
    isplitr; · iexact HIr1P
    isplitl [Hc1]; · iexact Hc1
    isplitl [Hq1]; · iexact Hq1
    isplitl [HO]; · iexact HO
    isplitl [HtS1]; · iexact HtS1
    isplitr; · iexact HrS1
    isplitl [HtR1P]; · iexact HtR1P
    iexact HrR1P
  iintro ⟨HcS1, HO⟩
  -- the four waits, nothing owed: receive 0 (the partner's chunk 0 landed), send 0 (the own chunk 0 back), receive 1, send 1
  iapply (Rounds.wp_wait_rest_token 𝒱₀ ER (sched m) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by show 0 + _ = (sched m).expect (recvCell c 0) 0; rw [Nat.zero_add, expect_recv])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hr0 := (Entails.of_eq (rest_recv m c 0)) $$ Hpay
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma (recvS 0), ()) (insert (SemLoc.reg barS, ()) W)) (R := 0) (m := 0) (T := ∅)
      (by show 0 + _ = (sched m).expect (sendCell c 0) 0; rw [Nat.zero_add, expect_send])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq (rest_send m c 0)) $$ Hpay
  iapply (Rounds.wp_wait_rest_token 𝒱₀ ER (sched m) (c : Thread nD τ) none (κ := K (c, 4))
      (wpE_waitDma2_eq 𝒱₀ (c : Thread nD τ) none Set.univ) (Set.mem_univ _) () (O := 0)
      (W := insert (SemLoc.dma (sendS 0), ()) (insert (SemLoc.dma (recvS 0), ()) (insert (SemLoc.reg barS, ()) W))) (R := 0) (m := 0) (T := ∅)
      (by show 0 + _ = (sched m).expect (recvCell c 1) 0; rw [Nat.zero_add, expect_recv])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hr1 := (Entails.of_eq (rest_recv m c 1)) $$ Hpay
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma (recvS 1), ()) (insert (SemLoc.dma (sendS 0), ()) (insert (SemLoc.dma (recvS 0), ()) (insert (SemLoc.reg barS, ()) W)))) (R := 0) (m := 0) (T := ∅)
      (by show 0 + _ = (sched m).expect (sendCell c 1) 0; rw [Nat.zero_add, expect_send])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq (rest_send m c 1)) $$ Hpay
  -- the four own cells close: their counters at zero are the core's again
  imod (Rounds.cell_close ER (sched m) (Set.mem_univ (K (c, 1))) (fun h => h) (R := 0 + 1) (duties_later m (sendCell c 0))) $$ [HatS0] with HzS0
  · isplitr; · iexact HIs0
    iexact HatS0
  imod (Rounds.cell_close ER (sched m) (Set.mem_univ (K (c, 2))) (fun h => h) (R := 0 + 1) (duties_later m (sendCell c 1))) $$ [HatS1] with HzS1
  · isplitr; · iexact HIs1
    iexact HatS1
  imod (Rounds.cell_close ER (sched m) (Set.mem_univ (K (c, 3))) (fun h => h) (R := 0 + 1) (duties_later m (recvCell c 0))) $$ [HatR0] with HzR0
  · isplitr; · iexact HIr0
    iexact HatR0
  imod (Rounds.cell_close ER (sched m) (Set.mem_univ (K (c, 4))) (fun h => h) (R := 0 + 1) (duties_later m (recvCell c 1))) $$ [HatR1] with HzR1
  · isplitr; · iexact HIr1
    iexact HatR1
  rw [wp_ret]; imodintro
  iapply Hk
  unfold bodyPost Φ₁ Dat.owesAt Pipeline.owesWithin
  rw [show (dats m 0 c).owed t₀.succ = 0 from rfl]
  isplitl [HzS0 HzS1 HzR0 HzR1]
  · isplitl [HzS0]; · iexact HzS0
    isplitl [HzS1]; · iexact HzS1
    isplitl [HzR0]; · iexact HzR0
    iexact HzR1
  isplitl [HO]
  · iexists (insert (SemLoc.dma (sendS 1), ()) (insert (SemLoc.dma (recvS 1), ()) (insert (SemLoc.dma (sendS 0), ()) (insert (SemLoc.dma (recvS 0), ()) (insert (SemLoc.reg barS, ()) W)))))
    isplitr; · ipureintro; exact fun _ _ => Or.inl trivial
    iexact HO
  isplitl [Hx]
  · iexists _; isplitr; · (ipureintro; rfl)
    iexact Hx
  iexists (gath m c); isplitr; · (ipureintro; rfl)
  iapply (join4 c (gath m c))
  unfold sendPay recvPay
  isplitl [Hs0]; · iexact Hs0
  isplitl [Hs1]; · iexact Hs1
  isplitl [Hr0]; · iexact Hr0
  iexact Hr1

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m c)
  unfold bodyPre' Φ₀ start
  iintro ⟨⟨⟨%K, Hg⟩, Hrest⟩, Ho, Hx, Hout⟩
  iapply (sound_body m K c fun _ => bodyPost m c)
  unfold bodyPre
  isplitr []
  · isplitl [Hg Hrest]
    · isplitl [Hg]; · iexact Hg
      iexact Hrest
    isplitl [Ho]; · iexact Ho
    isplitl [Hx] <;> iassumption
  · iintro H; iexact H

/-- info: 'Cert.KernelIdeal.Gather.body_obligation' depends on axioms: [propext, Classical.choice, Quot.sound] -/
#guard_msgs in #print axioms body_obligation

end Body

end Cert.KernelIdeal.Gather

end
-- ==== Proof.Launch.lean ====
/-
  The all-gather's launch: from each device's body, proved from its ghost state, to the run of the whole mesh.

  The launch element is split between the pipeline's staging cells and the protocol's forty cells (five a device);
  the protocol's half is dealt to the devices, each getting the round state, the position, the reached-mark and the
  duty token of its own five cells. One update for all devices at once then closes every cell's invariant over its
  semaphore at zero — a device's four own semaphores, and its barrier semaphore, which is the runtime's and comes
  with the unscoped ones — and hands every token to the device that pays its duty: a barrier cell's and the two
  receive cells' tokens to the partner, the two send cells' tokens stay. What the devices owe at launch comes back
  as credit: every device owes its partner one barrier unit and two chunks' credit, so every device gets just that.
-/
import proofs.«900665_g7700000000000666_dist_ag_v7x_xyz2x2x2_y_m256_n256_bf16_1_alg».proof.Proof.Data

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens as finite sets; the launch element -/

theorem ownSemFacts : Pipeline.OwnSemFacts cfg0.spec osem := by decide

theorem share_eq (c : Dev nD) (w : Fin cfg0.W) : (dats m 0 c).share w = fullShare := by unfold Dat.share; split <;> rfl

theorem role_injective : Function.Injective role := by
  intro a b h
  fin_cases a <;> fin_cases b <;> first | rfl | exact absurd h (by decide)

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : roleSem (role k) = roleSem (role k') := congrArg Prod.snd h
  have : k = k' := role_injective (roleSem_injective h2)
  subst this; rfl

/-- The protocol's cells: five a device. -/
def protoCells : Finset (GSem nD τ sig) := Finset.univ.map ⟨kcell, kcell_injective⟩

/-- A cell's one duty token as minted: round 0, the one duty. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def protoToks : Finset (GSem nD τ sig × ℕ × Unit) := Finset.univ.map ⟨tokOf, tokOf_injective⟩

/-- The launch element: the pipeline's staging cells and their tokens; the protocol's cells and theirs. -/
def u₀ : UU :=
  (initOf (Pipeline.cells cfgs cellOf_inj) (Pipeline.launchToks cfgs cellOf_inj), initOf protoCells protoToks)

/-- The duty tokens of device `c`'s own five cells. -/
def toks (c : Dev nD) : sProp 𝕄 :=
  iprop(dutyTok ER (barCell c) 0 () ∗ dutyTok ER (sendCell c 0) 0 () ∗ dutyTok ER (sendCell c 1) 0 ()
    ∗ dutyTok ER (recvCell c 0) 0 () ∗ dutyTok ER (recvCell c 1) 0 ())

/-- What the launch element deals device `c`: of its five cells the round state at counter zero, the position and the
    reached-mark at round 0, and the duty token. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the update over all devices makes of it: the ghost state the body starts from, at some names. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 5 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin5]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The update over all devices -/

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (recvCell c 0) 0 ∗ semVal (recvCell c 1) 0) := by
  rw [Pipeline.ownSems0_eq_of_list c osem [0, 1, 2, 3] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HR0, HR1⟩, HB⟩
  isplitl [HB]; · iexact HB
  isplitl [HS0]; · iexact HS0
  isplitl [HS1]; · iexact HS1
  isplitl [HR0]; · iexact HR0
  iexact HR1

/-- One device's share: its five semaphores at zero and its five round states close its five cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may keep a copy of: all forty invariants under their names, and that every cell has reached round 0. -/
def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` pays: its partner's barrier duty, its partner's two receive duties, its own two
    send duties. -/
def payToks (c : Dev nD) : sProp 𝕄 :=
  iprop(dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())
/-- What stays with device `c` alone: its positions in its five cells, and those tokens. -/
def linear (c : Dev nD) : sProp 𝕄 :=
  iprop((atPos ER (barCell c) 0 ∅ 0 ∗ atPos ER (sendCell c 0) 0 ∅ 0 ∗ atPos ER (sendCell c 1) 0 ∅ 0
      ∗ atPos ER (recvCell c 0) 0 ∅ 0 ∗ atPos ER (recvCell c 1) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaR0, HaR1⟩, HtB, HtR0, HtR1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtB]; · iexact HtB
  isplitl [HtR0]; · iexact HtR0
  isplitl [HtR1]; · iexact HtR1
  isplitl [HtS0]; · iexact HtS0
  iexact HtS1

omit [FloatOps F] in
/-- The tokens dealt to their payers: a barrier cell's token and the two receive cells' tokens go to the partner (the
    partner map is its own inverse, so summing over the devices or over their partners is the same), the send cells' stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c 0) 0 () : sProp 𝕄)),
    bigSep_univ_equiv pairing (fun c : Dev nD => (dutyTok ER (recvCell c 1) 0 () : sProp 𝕄))]
  iintro ⟨HB, HS0, HS1, HR0, HR1⟩
  isplitl [HB]; · iexact HB
  isplitl [HR0]; · iexact HR0
  isplitl [HR1]; · iexact HR1
  isplitl [HS0]; · iexact HS0
  iexact HS1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5]; rfl)))
    isplitl [Hat]; · iexact Hat
    iexact Htk

/-- The update over all devices at once: every device's own AND unscoped semaphores with what the launch element dealt it. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owes its partner one barrier unit and a chunk's credit on each receive cell; the partner map being a
    bijection of the devices, every device is dealt exactly the credit of its own three waits that others pay. -/
theorem creds (c : Dev nD) :
    (Pipeline.launchCred O₀ c : sProp 𝕄)
      ⊢ iprop(cred (tallyAt (barCell c) () 1) ∗ cred (tallyAt (recvCell c 0) () N) ∗ cred (tallyAt (recvCell c 1) () N)) := by
  rw [show (O₀ : Dev nD → CellTallies nD τ sig Unit)
      = fun d => (tallyAt (recvCell (peer d) 1) () N + tallyAt (recvCell (peer d) 0) () N) + tallyAt (barCell (peer d)) () 1 from rfl,
    Pipeline.launchCred_add (fun d => tallyAt (recvCell (peer d) 1) () N + tallyAt (recvCell (peer d) 0) () N) (fun d => tallyAt (barCell (peer d)) () 1),
    Pipeline.launchCred_add (fun d => tallyAt (recvCell (peer d) 1) () N) (fun d => tallyAt (recvCell (peer d) 0) () N)]
  iintro ⟨⟨H1, H0⟩, HB⟩
  isplitl [HB]; · iapply (Pipeline.launchCred_tallyAt (.reg barS) peer peer peer_peer peer_peer () 1 c); iexact HB
  isplitl [H0]; · iapply (Pipeline.launchCred_tallyAt (.dma (recvS 0)) peer peer peer_peer peer_peer () N c); iexact H0
  iapply (Pipeline.launchCred_tallyAt (.dma (recvS 1)) peer peer peer_peer peer_peer () N c); iexact H1

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H0, H1⟩
  imodintro
  unfold start G'
  isplitl
  · isplitl [HG]; · iexact HG
    isplitl [HB]; · iexact HB
    isplitl [H0]; · iexact H0
    isplitl [H1]; · iexact H1
    iexact Hlev
  · iempintro

/-- There is no scoped buffer besides the staging buffers: the invariant before the point is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

/-- After the point the four own semaphores are back at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨HS0, HS1, HR0, HR1⟩
  isplitr; · iempintro
  isplitl
  · isplitl [HS0]; · iexact HS0
    isplitl [HS1]; · iexact HS1
    isplitl [HR0]; · iexact HR0
    iexact HR1
  · iempintro

/-- The pipeline's own waits are on its staging semaphores, which lie at level 0, below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> first | rfl | decide) _ (by
      rcases t with ⟨_ | _, ht⟩
      · exact Or.inl rfl
      · exact Or.inr rfl)

/-! ## The run -/

set_option maxRecDepth 8000 in
/-- At the compiled mesh of eight devices, for any float values, from any memory with zero counters, given each
    device's body: every weakly fair execution of @main terminates, and every final state has each window's array at
    what the proof data computes for it. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is an input window's: never written back, it ends as it was launched. -/
theorem finalA_x (c : Dev nD) : (dats m 0 c).arrAt (0 : Fin 2) cfg0.N = m ((c : Thread nD τ).loc main_arg0) :=
  (dats (F := F) m 0 c).arrAt_in (0 : Fin 2) rfl _

theorem finalA_o (c : Dev nD) : (dats m 0 c).arrAt (1 : Fin 2) cfg0.N = gath m c := by
  rw [show cfg0.N = (t₀ : Fin cfg0.N).val + 1 from rfl, (dats m 0 c).arrAt_succ (1 : Fin 2) t₀, flush0_1, if_pos rfl]
  funext i
  have he : ((cfg0.win (1 : Fin 2)).blk t₀).view.emb i = i :=
    funext fun a => Fin.ext (Pipeline.Window.rect_emb_val_of_index_zero win0_1 t₀ a rfl i)
  exact (congrArg _ he.symm).trans
    ((View.write_emb_of_mem (v := ((cfg0.win (1 : Fin 2)).blk t₀).view) _ _ (Finset.mem_univ i)).trans (cast_eq _ _))

/-! ## The run, read at the two arrays -/

/-- The run with its values named: every final state has, on every device, the result array at the gathered buffer and
    the argument array as it was launched. -/
theorem run_val (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, r.2.mem ((c.tc : Thread nD τ).loc main_v1) = gath m c
        ∧ r.2.mem ((c.tc : Thread nD τ).loc main_arg0) = m ((c.tc : Thread nD τ).loc main_arg0)) :=
  (θ_run defs _ _).mono (fun _ h c => ⟨(h c (1 : Fin 2)).trans (finalA_o m c), (h c (0 : Fin 2)).trans (finalA_x m c)⟩) (run_main m hbody ρ)

/-- info: 'Cert.KernelIdeal.Gather.run_val' depends on axioms: [propext, Classical.choice, Quot.sound] -/
#guard_msgs in #print axioms run_val

end Cert.KernelIdeal.Gather

end
-- ==== Proof.BitsContents.lean ====
/-
  The all-gather along the mesh's second axis, two devices a pair: the protocol.

  Each device holds a block of 256 rows of the array and ends with all 512 rows: its own block, changed to
  the narrower float format, in the half of the result its second mesh coordinate names, and its partner's
  block in the other half. The partner of a device differs from it in the second mesh coordinate only.
  Every device writes its own half in two chunks of 128 rows and sends each chunk into the same rows of its
  partner's result buffer; before its first transfer it has waited for its partner's signal, by which the
  partner gives it the rows it will write.

  This module: the partner map, the four chunks of the result buffer, and what the buffer ends up holding as ONE
  function of the index.
-/
import proofs.«900665_g7700000000000666_dist_ag_v7x_xyz2x2x2_y_m256_n256_bf16_1_alg».proof.Proof.Gen.Kernel
import proofs.«900665_g7700000000000666_dist_ag_v7x_xyz2x2x2_y_m256_n256_bf16_1_alg».proof.Proof.Gen.Kernel.Skeleton
import proofs.«900665_g7700000000000666_dist_ag_v7x_xyz2x2x2_y_m256_n256_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty a round, named by `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner -/

/-- A device's coordinate on the mesh's second axis: which half of the result its own block goes to. -/
def yv (c : Dev nD) : ℕ := (c.val / 2) % 2

/-- The device that differs from `c` in the second mesh coordinate only. -/
def peer (c : Dev nD) : Dev nD :=
  ⟨(4 * (c.val / 4) + (c.val % 2) + 2) - 2 * ((c.val / 2) % 2), by have h : c.val < 8 := c.isLt; show _ < 8; omega⟩

theorem peer_peer : ∀ c : Dev nD, peer (peer c) = c := by decide
theorem yv_lt (c : Dev nD) : yv c < 2 := Nat.mod_lt _ (by decide)
theorem yv_peer : ∀ c : Dev nD, yv (peer c) = 1 - yv c := by decide

/-- The three device chains of the kernel (the signal and the two transfers) all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-- Of a device and its partner, the one whose own block goes to half `h` of the result. -/
def srcDev (c : Dev nD) (h : Fin 2) : Dev nD := if yv c = h.val then c else peer c

theorem srcDev_peer : ∀ (c : Dev nD) (h : Fin 2), srcDev (peer c) h = srcDev c h := by decide
theorem srcDev_self : ∀ c : Dev nD, srcDev c ⟨yv c, yv_lt c⟩ = c := by decide
theorem srcDev_other : ∀ c : Dev nD, srcDev c ⟨yv (peer c), yv_lt (peer c)⟩ = peer c := by decide

/-! ## The buffers and the chunks -/

abbrev xM : Memref sig .tc .vmem S256x256 .f32 := Memref.whole cc0_stg0_0
abbrev oM : Memref sig .tc .vmem S512x256 .bf16 := Memref.whole cc0_stg1_0

/-- Rows `128 k` to `128 k + 128` of the half of the result that is device `c`'s own. -/
abbrev slRect (c : Dev nD) (k : Fin 2) : Rect S512x256 :=
  Rect.unit (s := S512x256) (k0_off2 c (BitVec.ofNat 32 (128 * k.val))) S128x256.size (k0_off2_inb c k)

/-- Chunk `k` of the half of the result buffer that is device `c`'s own: the source of `c`'s transfer `k` and, on its
    partner's buffer, that transfer's destination. -/
def sl (c : Dev nD) (k : Fin 2) : Memref sig .tc .vmem S128x256 .bf16 := oM.slice (slRect c k) (fun _ => rfl)

/-- The first row of that chunk. -/
def rowLo (c : Dev nD) (k : Fin 2) : ℕ := 256 * yv c + 128 * k.val

theorem mem_slRect (c : Dev nD) (k : Fin 2) (i : S512x256.Idx) :
    i ∈ (slRect c k).set ↔ rowLo c k ≤ (i 0).val ∧ (i 0).val < rowLo c k + 128 := by
  unfold rowLo yv
  rw [Rect.mem_set_unit, k0_off2_eq c k, Fin.forall_fin_two]
  have h1 : (i 1).val < 256 := (i 1).isLt
  simp only [Matrix.cons_val_zero, Matrix.cons_val_one, Matrix.head_cons]
  show (_ ∧ _ < _ + 128) ∧ (0 ≤ _ ∧ _ < 0 + 256) ↔ _
  omega

theorem sl_set (c : Dev nD) (k : Fin 2) : (sl c k).view.set = (slRect c k).set := View.set_slice_whole _ _

/-- The two chunks of a device's own half are disjoint, so are those of its partner's half, and the two halves; the four
    chunks are the whole buffer. -/
theorem rect_disj (c : Dev nD) : Disjoint (slRect c 0).set (slRect c 1).set :=
  Finset.disjoint_left.mpr fun i h0 h1 => by
    rw [mem_slRect] at h0 h1; unfold rowLo at h0 h1; simp only [Fin.val_zero, Fin.val_one] at h0 h1; omega

theorem rect_half_disj (c : Dev nD) :
    Disjoint ((slRect c 0).set ∪ (slRect c 1).set) ((slRect (peer c) 0).set ∪ (slRect (peer c) 1).set) := by
  have hy := yv_peer c; have hl := yv_lt c
  refine Finset.disjoint_left.mpr fun i h0 h1 => ?_
  rw [Finset.mem_union, mem_slRect, mem_slRect] at h0 h1
  unfold rowLo at h0 h1; simp only [Fin.val_zero, Fin.val_one] at h0 h1
  omega

theorem rect_cover (c : Dev nD) :
    (Finset.univ : Finset S512x256.Idx)
      = ((slRect c 0).set ∪ (slRect c 1).set) ∪ ((slRect (peer c) 0).set ∪ (slRect (peer c) 1).set) := by
  have hy := yv_peer c; have hl := yv_lt c
  ext i
  have hi : (i 0).val < 512 := (i 0).isLt
  simp only [Finset.mem_univ, Finset.mem_union, mem_slRect, true_iff]
  unfold rowLo; simp only [Fin.val_zero, Fin.val_one]
  omega

theorem sl_disj (c : Dev nD) : Disjoint (sl c 0).view.set (sl c 1).view.set := by
  rw [sl_set, sl_set]; exact rect_disj c

theorem half_disj (c : Dev nD) :
    Disjoint ((sl c 0).view.set ∪ (sl c 1).view.set) ((sl (peer c) 0).view.set ∪ (sl (peer c) 1).view.set) := by
  rw [sl_set, sl_set, sl_set, sl_set]; exact rect_half_disj c

theorem sl_cover (c : Dev nD) :
    (Finset.univ : Finset S512x256.Idx)
      = ((sl c 0).view.set ∪ (sl c 1).view.set) ∪ ((sl (peer c) 0).view.set ∪ (sl (peer c) 1).view.set) := by
  rw [sl_set, sl_set, sl_set, sl_set]; exact rect_cover c

/-! ## Contents -/

/-- Device `c`'s block of the array, as its staging buffer holds it. -/
def xstg (c : Dev nD) : (cc0_stg0_0 : Ref sig .tc).ty.Contents (Elt F) :=
  (win0_0.blk (0 : Fin 1)).view.read (Elt F) (m ((c : Thread nD τ).loc main_arg0))

theorem xrect_inb : ∀ (k : Fin 2) a, (![128 * k.val, 0] : Fin 2 → Nat) a + S128x256.size a ≤ S256x256.size a := by decide

/-- Rows `128 k` to `128 k + 128` of a device's block. -/
abbrev xrect (k : Fin 2) : Rect S256x256 := Rect.unit (s := S256x256) ![128 * k.val, 0] S128x256.size (xrect_inb k)

/-- Those rows of device `c`'s block, -/
def half (c : Dev nD) (k : Fin 2) : Vec F S128x256 .f32 := xM.view.readAt (Elt F) (xrect k).toLoadRect (xstg m c)

/-- and what the kernel stores of them: each entry in the narrower format. -/
def pay (c : Dev nD) (k : Fin 2) : FVec F S128x256 .bf16 := k0_pay1 (half m c k)

/-- The row and the column of an index of the result buffer. -/
def rowOf (i : S512x256.Idx) : ℕ := (i 0).val
def colOf (i : S512x256.Idx) : ℕ := (i 1).val

/-- The whole result buffer as it ends on device `c` AND on its partner, as one function of the index: row `i` lies
    in half `i / 256`, which holds the block of the device of the pair whose second mesh coordinate is that, in
    chunk `(i / 128) % 2` of it, at row `i % 128` of the chunk. -/
def gath (c : Dev nD) : (cc0_stg1_0 : Ref sig .tc).ty.Contents (Elt F) := fun i =>
  pay m (srcDev c ⟨(rowOf i / 256) % 2, Nat.mod_lt _ (by decide)⟩) ⟨(rowOf i / 128) % 2, Nat.mod_lt _ (by decide)⟩
    (Shape.pair (⟨rowOf i % 128, Nat.mod_lt _ (by decide)⟩ : Fin 128) (⟨colOf i % 256, Nat.mod_lt _ (by decide)⟩ : Fin 256))

theorem gath_peer (c : Dev nD) : gath m (peer c) = gath m c := by
  funext i; unfold gath; rw [srcDev_peer]

/-- Where an index of a chunk lies in the buffer: its row further down by the chunk's first row, its column the same. -/
theorem emb_row (d : Dev nD) (k : Fin 2) (x : S128x256.Idx) : rowOf ((sl d k).view.emb x) = rowLo d k + (x 0).val := by
  show ((slRect d k).emb x 0 : Nat) = _
  rw [Rect.emb_apply]
  simp only [Rect.off_unit, Rect.stride_unit, k0_off2_eq d k, Matrix.cons_val_zero]
  unfold rowLo yv; omega

theorem emb_col (d : Dev nD) (k : Fin 2) (x : S128x256.Idx) : colOf ((sl d k).view.emb x) = (x 1).val := by
  show ((slRect d k).emb x 1 : Nat) = _
  rw [Rect.emb_apply]
  rw [Rect.off_unit, Rect.stride_unit, k0_off2_eq d k]
  show 0 + 1 * (x 1).val = (x 1).val
  omega

theorem gath_apply (c : Dev nD) (i : S512x256.Idx) (d : Dev nD) (k : Fin 2) (x : S128x256.Idx)
    (hd : srcDev c ⟨(rowOf i / 256) % 2, Nat.mod_lt _ (by decide)⟩ = d) (hk : (rowOf i / 128) % 2 = k.val)
    (hr : rowOf i % 128 = (x 0).val) (hc : colOf i % 256 = (x 1).val) : gath m c i = pay m d k x := by
  unfold gath
  have e2 : (⟨(rowOf i / 128) % 2, Nat.mod_lt _ (by decide)⟩ : Fin 2) = k := Fin.ext hk
  have e3 : Shape.pair (⟨rowOf i % 128, Nat.mod_lt _ (by decide)⟩ : Fin 128) (⟨colOf i % 256, Nat.mod_lt _ (by decide)⟩ : Fin 256) = x := by
    rw [← Shape.pair_eta x]
    congr 1
    · exact Fin.ext hr
    · exact Fin.ext hc
  rw [hd, e2, e3]

/-- At an index of chunk `k` of the own half of `d` — `d` the device itself or its partner — the gathered buffer holds
    what `d` stores there. -/
theorem gath_at (c d : Dev nD) (hsrc : srcDev c ⟨yv d, yv_lt d⟩ = d) (k : Fin 2) (x : S128x256.Idx) :
    gath m c ((sl d k).view.emb x) = pay m d k x := by
  have h0 := emb_row d k x; have h1 := emb_col d k x
  have hx : (x 0).val < 128 := (x 0).isLt
  have hx1 : (x 1).val < 256 := (x 1).isLt
  have hy := yv_lt d; have hk := k.isLt
  unfold rowLo at h0
  have e : (⟨(rowOf ((sl d k).view.emb x) / 256) % 2, Nat.mod_lt _ (by decide)⟩ : Fin 2) = ⟨yv d, yv_lt d⟩ :=
    Fin.ext (by show _ % 2 = yv d; rw [h0]; omega)
  exact gath_apply m c _ d k x ((congrArg (srcDev c) e).trans hsrc) (by rw [h0]; omega) (by rw [h0]; omega) (by rw [h1]; omega)

/-- So a chunk just stored by its owner, whatever the buffer held, agrees with the gathered buffer on the chunk; -/
theorem stored_congr (c d : Dev nD) (hsrc : srcDev c ⟨yv d, yv_lt d⟩ = d) (k : Fin 2) (fd : (sl d k).view.ty.Contents (Elt F)) :
    ∀ i ∈ (sl d k).view.set, (sl d k).view.write (Elt F) fd (pay m d k) Finset.univ i = gath m c i := by
  intro i hi
  obtain ⟨x, rfl⟩ := View.exists_emb_of_mem_set _ hi
  exact (View.write_emb_of_mem (v := (sl d k).view) fd (pay m d k) (Finset.mem_univ x)).trans
    ((cast_eq _ _).trans (gath_at m c d hsrc k x).symm)

/-- and a chunk of the gathered buffer copied over the same chunk of any buffer agrees with the gathered buffer there. -/
theorem copied_congr (c d : Dev nD) (k : Fin 2) (fd : (sl d k).view.ty.Contents (Elt F)) :
    ∀ i ∈ (sl d k).view.set, (sl d k).view.write (Elt F) fd ((sl d k).view.read (Elt F) (gath m c)) Finset.univ i = gath m c i := by
  intro i hi
  obtain ⟨x, rfl⟩ := View.exists_emb_of_mem_set _ hi
  exact (View.write_emb_of_mem (v := (sl d k).view) fd ((sl d k).view.read (Elt F) (gath m c)) (Finset.mem_univ x)).trans
    ((cast_eq _ _).trans ((View.read_apply (v := (sl d k).view) (gath m c) x).trans (cast_eq _ _)))

end Cert.Kernel.Gather

end
-- ==== Proof.BitsSchedule.lean ====
/-
  The all-gather's protocol under the rounds discipline: five semaphore cells a device, each with ONE duty, all
  in round 0.

  * the barrier cell of device `c`: its partner's signal, one unit, which hands `c` the two chunks of the partner's
    buffer that `c`'s transfers will write (rows of `c`'s own half there), at whatever they hold;
  * the send cell of transfer `k`: the transfer's own credit once the source is read: the source chunk back, holding
    its part of the gathered buffer;
  * the receive cell of transfer `k`: the partner's transfer `k` landing: chunk `k` of the partner's half of `c`'s
    buffer, holding its part of the gathered buffer.

  A device signals first (owing nothing to anybody before that but the signal and its two transfers), waits on its
  barrier cell while it still owes the two transfers, and waits on its send and receive cells owing nothing: so the
  barrier cells lie below the receive cells, and everything else lower still.
-/
import proofs.«900665_g7700000000000666_dist_ag_v7x_xyz2x2x2_y_m256_n256_bf16_1_alg».proof.Proof.BitsContents

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The runtime's barrier semaphore; transfer `k`'s send semaphore and receive semaphore. -/
abbrev barS : Sem sig := (SemArray.scalar (sig.barrier 0 rfl) : Sems sig S_).sem
abbrev sendS (k : Fin 2) : DmaSem sig := ⟨2 + k.val, by have := k.isLt; show _ < 6; omega⟩
abbrev recvS (k : Fin 2) : DmaSem sig := ⟨4 + k.val, by have := k.isLt; show _ < 6; omega⟩

/-- What a semaphore is in the protocol. -/
inductive Role where
  | bar
  | send (k : Fin 2)
  | recv (k : Fin 2)
  deriving DecidableEq

def roleSem : Role → SemLoc sig
  | .bar => .reg barS
  | .send k => .dma (sendS k)
  | .recv k => .dma (recvS k)

def roleOf : SemLoc sig → Option Role
  | .reg s => if s = barS then some .bar else none
  | .dma q => if q.val = 2 then some (.send 0) else if q.val = 3 then some (.send 1)
      else if q.val = 4 then some (.recv 0) else if q.val = 5 then some (.recv 1) else none

theorem roleOf_roleSem : ∀ r : Role, roleOf (roleSem r) = some r := by
  intro r
  cases r with
  | bar => exact (if_pos rfl : (if (barS : Sem sig) = barS then some Role.bar else none) = some Role.bar)
  | send k => fin_cases k <;> rfl
  | recv k => fin_cases k <;> rfl

theorem roleSem_injective : Function.Injective roleSem := fun a b h =>
  Option.some.inj (by rw [← roleOf_roleSem a, ← roleOf_roleSem b, h])

abbrev cell (c : Dev nD) (r : Role) : GSem nD τ sig := ((c : Thread nD τ), roleSem r)
abbrev barCell (c : Dev nD) : GSem nD τ sig := ((c : Thread nD τ), .reg barS)
abbrev sendCell (c : Dev nD) (k : Fin 2) : GSem nD τ sig := ((c : Thread nD τ), .dma (sendS k))
abbrev recvCell (c : Dev nD) (k : Fin 2) : GSem nD τ sig := ((c : Thread nD τ), .dma (recvS k))

theorem barCell_eq (c : Dev nD) : barCell c = cell c .bar := rfl
theorem sendCell_eq (c : Dev nD) (k : Fin 2) : sendCell c k = cell c (.send k) := rfl
theorem recvCell_eq (c : Dev nD) (k : Fin 2) : recvCell c k = cell c (.recv k) := rfl

/-- The units a transfer of one chunk credits. -/
abbrev N : ℕ := (sl (0 : Dev nD) 0).view.dmaCredit
theorem N_pos : 0 < N := View.dmaCredit_pos _ (by decide)
theorem sl_credit (c : Dev nD) (k : Fin 2) : (sl c k).view.dmaCredit = N := rfl

/-! ## What the units hand over -/

/-- Chunk `k` of the own half of `c`, on device `d`'s buffer, holding `f` there. -/
def slotPts (d c : Dev nD) (k : Fin 2) (f : Buf (Elt F) ((sl c k).view.loc (d : Thread nD τ))) : sProp 𝕄 :=
  (sl c k).view.loc (d : Thread nD τ) ↦[(sl c k).view.set]{fullShare} f

omit [FloatOps F] in
instance slotPts_storable (d c : Dev nD) (k : Fin 2) (f) : BI.Storable (upEmb : UEmb _ 𝕄) (slotPts (F := F) d c k f) := by
  unfold slotPts; infer_instance

/-- The partner's signal hands `c` the two chunks of the partner's buffer it will write, at whatever they hold. -/
def barPay (c : Dev nD) : sProp 𝕄 := iprop((∃ f, slotPts (peer c) c 0 f) ∗ ∃ f, slotPts (peer c) c 1 f)
/-- A transfer's send credit hands back its source, holding its part of the gathered buffer. -/
def sendPay (c : Dev nD) (k : Fin 2) : sProp 𝕄 := slotPts c c k (gath m c)
/-- The partner's transfer landing hands `c` that chunk of its own buffer, holding its part of the gathered buffer. -/
def recvPay (c : Dev nD) (k : Fin 2) : sProp 𝕄 := slotPts c (peer c) k (gath m c)

instance barPay_storable (c : Dev nD) : BI.Storable (upEmb : UEmb _ 𝕄) (barPay (F := F) c) := by unfold barPay; infer_instance
instance sendPay_storable (c : Dev nD) (k : Fin 2) : BI.Storable (upEmb : UEmb _ 𝕄) (sendPay m c k) := slotPts_storable c c k (gath m c)
instance recvPay_storable (c : Dev nD) (k : Fin 2) : BI.Storable (upEmb : UEmb _ 𝕄) (recvPay m c k) := slotPts_storable c (peer c) k (gath m c)

/-- One round, round 0, one duty a cell: a barrier cell's of one unit, a send or receive cell's of a chunk's credit. -/
def sched : Rounds.Schedule (GSem nD τ sig) Unit 𝕄 where
  duties g r := if r = 0 ∧ g.1.2 = .tc ∧ (roleOf g.2).isSome then {()} else ∅
  amount g _ _ := match roleOf g.2 with
    | some .bar => 1
    | _ => N
  payload g _ _ := match roleOf g.2 with
    | some .bar => barPay g.1.1
    | some (.send k) => sendPay m g.1.1 k
    | some (.recv k) => recvPay m g.1.1 k
    | none => iprop(emp)
  amount_pos g _ _ _ := by
    split
    · exact Nat.one_pos
    · exact N_pos

instance sched_payload_storable (g : GSem nD τ sig) (r : ℕ) (d : Unit) :
    BI.Storable (upEmb : UEmb _ 𝕄) ((sched (F := F) m).payload g r d) := by
  show BI.Storable upEmb (match roleOf g.2 with
    | some .bar => barPay g.1.1
    | some (.send k) => sendPay m g.1.1 k
    | some (.recv k) => recvPay m g.1.1 k
    | none => iprop(emp))
  split <;> infer_instance

section Tables
variable (c : Dev nD) (r : Role)

theorem duties_cell : (sched (F := F) m).duties (cell c r) 0 = {()} := by
  dsimp only [sched]; exact if_pos ⟨rfl, rfl, by rw [roleOf_roleSem]; rfl⟩
theorem duties_later (g : GSem nD τ sig) : ∀ r, 1 ≤ r → (sched (F := F) m).duties g r = ∅ :=
  fun r hr => by dsimp only [sched]; exact if_neg fun h => by omega

theorem duties_bar : (sched (F := F) m).duties (barCell c) 0 = {()} := by rw [barCell_eq]; exact duties_cell m c .bar
theorem duties_send (k : Fin 2) : (sched (F := F) m).duties (sendCell c k) 0 = {()} := by rw [sendCell_eq]; exact duties_cell m c (.send k)
theorem duties_recv (k : Fin 2) : (sched (F := F) m).duties (recvCell c k) 0 = {()} := by rw [recvCell_eq]; exact duties_cell m c (.recv k)
theorem amount_bar (d : Unit) : (sched (F := F) m).amount (barCell c) 0 d = 1 := by rw [barCell_eq]; dsimp only [sched]; rw [roleOf_roleSem]
theorem amount_send (k : Fin 2) (d : Unit) : (sched (F := F) m).amount (sendCell c k) 0 d = N := by rw [sendCell_eq]; dsimp only [sched]; rw [roleOf_roleSem]
theorem amount_recv (k : Fin 2) (d : Unit) : (sched (F := F) m).amount (recvCell c k) 0 d = N := by rw [recvCell_eq]; dsimp only [sched]; rw [roleOf_roleSem]

theorem expect_bar : (sched (F := F) m).expect (barCell c) 0 = 1 := by
  unfold Schedule.expect Schedule.amountOf; rw [duties_bar, Finset.sum_singleton, amount_bar]
theorem expect_send (k : Fin 2) : (sched (F := F) m).expect (sendCell c k) 0 = N := by
  unfold Schedule.expect Schedule.amountOf; rw [duties_send, Finset.sum_singleton, amount_send]
theorem expect_recv (k : Fin 2) : (sched (F := F) m).expect (recvCell c k) 0 = N := by
  unfold Schedule.expect Schedule.amountOf; rw [duties_recv, Finset.sum_singleton, amount_recv]

theorem payload_bar (d : Unit) : (sched (F := F) m).payload (barCell c) 0 d = barPay c := by rw [barCell_eq]; dsimp only [sched]; rw [roleOf_roleSem]
theorem payload_send (k : Fin 2) (d : Unit) : (sched (F := F) m).payload (sendCell c k) 0 d = sendPay m c k := by rw [sendCell_eq]; dsimp only [sched]; rw [roleOf_roleSem]
theorem payload_recv (k : Fin 2) (d : Unit) : (sched (F := F) m).payload (recvCell c k) 0 d = recvPay m c k := by rw [recvCell_eq]; dsimp only [sched]; rw [roleOf_roleSem]

/-- The rest of a cell's round, no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send (k : Fin 2) : bigSep ((sched (F := F) m).duties (sendCell c k) 0 \ ∅) (fun d => (sched (F := F) m).payload (sendCell c k) 0 d) = sendPay m c k := by
  rw [Finset.sdiff_empty, duties_send, bigSep_singleton, payload_send]
theorem rest_recv (k : Fin 2) : bigSep ((sched (F := F) m).duties (recvCell c k) 0 \ ∅) (fun d => (sched (F := F) m).payload (recvCell c k) 0 d) = recvPay m c k := by
  rw [Finset.sdiff_empty, duties_recv, bigSep_singleton, payload_recv]

end Tables

/-! ## What each device owes at launch; the levels -/

/-- After its signal a device still owes its partner's two receive cells a chunk's credit each; -/
def O₁ (c : Dev nD) : CellTallies nD τ sig Unit := tallyAt (recvCell (peer c) 1) () N + tallyAt (recvCell (peer c) 0) () N
/-- at launch also its partner's barrier cell one unit (summed so that each payment peels the last summand). -/
def O₀ (c : Dev nD) : CellTallies nD τ sig Unit := O₁ c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := match roleOf g.2 with
  | some .bar => 1
  | some (.recv _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by rw [barCell_eq]; unfold lv; rw [roleOf_roleSem]
theorem lv_recv (c : Dev nD) (k : Fin 2) (u : Unit) : lv (recvCell c k) u = 2 := by rw [recvCell_eq]; unfold lv; rw [roleOf_roleSem]

theorem O₁_pos {c : Dev nD} {g : GSem nD τ sig} {u : Unit} (h : 0 < O₁ c g u) : ∃ k, g = recvCell (peer c) k := by
  unfold O₁ at h
  rcases Pipeline.add_pos_cases h with h | h
  · exact ⟨1, (Pipeline.tallyAt_pos h).1⟩
  · exact ⟨0, (Pipeline.tallyAt_pos h).1⟩

theorem O₀_pos {c : Dev nD} {g : GSem nD τ sig} {u : Unit} (h : 0 < O₀ c g u) : (∃ k, g = recvCell (peer c) k) ∨ g = barCell (peer c) := by
  unfold O₀ at h
  rcases Pipeline.add_pos_cases h with h | h
  · exact .inl (O₁_pos h)
  · exact .inr (Pipeline.tallyAt_pos h).1

omit [FloatOps F] in
/-- A wait on a semaphore at level 0 (the pipeline's staging semaphores) is allowed whatever of `O₀` is still owed. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g i hg => ?_
    rcases O₀_pos hg with ⟨k, rfl⟩ | rfl
    · exact ⟨by rw [L_tc]; exact Finset.mem_singleton_self _, by rw [hsm, lv_recv]; decide⟩
    · exact ⟨by rw [L_tc]; exact Finset.mem_singleton_self _, by rw [hsm, lv_bar]; decide⟩
  · rw [MayWait_zero]; iintro -; iempintro

omit [FloatOps F] in
/-- At its barrier wait a device owes its partner's receive cells only, which lie above its barrier cell. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g i hg => by
    obtain ⟨k, rfl⟩ := O₁_pos hg
    exact ⟨by rw [L_tc]; exact Finset.mem_singleton_self _, by rw [lv_bar, lv_recv]; decide⟩

end Cert.Kernel.Gather

end
-- ==== Proof.BitsData.lean ====
/-
  The all-gather's ghost state and the pipeline's proof data.

  What a device's body starts from: the invariants of the cells it touches (its own five, and its partner's
  barrier and receive cells, which it pays), its positions at round 0 of its own cells, the tokens of the five
  duties it pays (its partner's barrier duty, its partner's two receive duties, its own two send duties), that
  those cells have reached round 0, the credit of its three waits others pay (barrier, two receives), and the
  levels. What it ends with: its four own semaphores back at zero, its block unchanged in its staging buffer
  and the gathered array in the result's staging buffer.
-/
import proofs.«900665_g7700000000000666_dist_ag_v7x_xyz2x2x2_y_m256_n256_bf16_1_alg».proof.Proof.BitsSchedule
import proofs.«900665_g7700000000000666_dist_ag_v7x_xyz2x2x2_y_m256_n256_bf16_1_alg».proof.Proof.Gen.Kernel.Points

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells by number -/

/-- A device's five cells: barrier, send 0, send 1, receive 0, receive 1. -/
abbrev role : Fin 5 → Role := fun | 0 => .bar | 1 => .send 0 | 2 => .send 1 | 3 => .recv 0 | 4 => .recv 1
abbrev kcell (ck : Dev nD × Fin 5) : GSem nD τ sig := cell ck.1 (role ck.2)

/-- The kernel's OWN (scoped) semaphores, as the launch indexes them: send 0, send 1, receive 0, receive 1. -/
abbrev osem : Fin 4 → SemLoc sig := fun | 0 => .dma (sendS 0) | 1 => .dma (sendS 1) | 2 => .dma (recvS 0) | 3 => .dma (recvS 1)

/-! ## The ghost state -/

/-- The invariants of the cells device `c`'s body opens, under the names `K`. -/
def invs (K : Dev nD × Fin 5 → ℕ) (c : Dev nD) : sProp 𝕄 :=
  iprop(cellInv ER (sched m) (K (c, 0)) (barCell c)
    ∗ cellInv ER (sched m) (K (c, 1)) (sendCell c 0) ∗ cellInv ER (sched m) (K (c, 2)) (sendCell c 1)
    ∗ cellInv ER (sched m) (K (c, 3)) (recvCell c 0) ∗ cellInv ER (sched m) (K (c, 4)) (recvCell c 1)
    ∗ cellInv ER (sched m) (K (peer c, 0)) (barCell (peer c))
    ∗ cellInv ER (sched m) (K (peer c, 3)) (recvCell (peer c) 0) ∗ cellInv ER (sched m) (K (peer c, 4)) (recvCell (peer c) 1))

instance invs_persistent (K : Dev nD × Fin 5 → ℕ) (c : Dev nD) : BI.Persistent (invs m K c) := by unfold invs; infer_instance

/-- The ghost state device `c` starts from. -/
def ghost (K : Dev nD × Fin 5 → ℕ) (c : Dev nD) : sProp 𝕄 :=
  iprop(invs m K c
    ∗ atPos ER (barCell c) 0 ∅ 0 ∗ atPos ER (sendCell c 0) 0 ∅ 0 ∗ atPos ER (sendCell c 1) 0 ∅ 0
    ∗ atPos ER (recvCell c 0) 0 ∅ 0 ∗ atPos ER (recvCell c 1) 0 ∅ 0
    ∗ reached ER (barCell (peer c)) 0 ∗ reached ER (recvCell (peer c) 0) 0 ∗ reached ER (recvCell (peer c) 1) 0
    ∗ reached ER (sendCell c 0) 0 ∗ reached ER (sendCell c 1) 0
    ∗ dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())

/-- What device `c`'s body starts from: that at some names, its three credit tokens and the level facts. -/
def start (c : Dev nD) : sProp 𝕄 :=
  iprop((∃ K, ghost m K c) ∗ cred (tallyAt (barCell c) () 1) ∗ cred (tallyAt (recvCell c 0) () N) ∗ cred (tallyAt (recvCell c 1) () N)
    ∗ levAts L lv)

def Φ₀ (c : Dev nD) : sProp 𝕄 := start m c
/-- After the point: the four OWN cells at zero, closed (the barrier cell is the runtime's: nothing to hand back). -/
def Φ₁ (c : Dev nD) : sProp 𝕄 :=
  iprop(semVal (sendCell c 0) 0 ∗ semVal (sendCell c 1) 0 ∗ semVal (recvCell c 0) 0 ∗ semVal (recvCell c 1) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gath m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole, at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is proved from, the names of the invariants fixed, -/
def bodyPre (K : Dev nD × Fin 5 → ℕ) (c : Dev nD) : sProp 𝕄 :=
  iprop((ghost m K c ∗ cred (tallyAt (barCell c) () 1) ∗ cred (tallyAt (recvCell c 0) () N) ∗ cred (tallyAt (recvCell c 1) () N) ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- and what it is proved to. -/
def bodyPost (c : Dev nD) : sProp 𝕄 :=
  iprop(Φ₁ c ∗ (dats m 0 c).owesAt () t₀.succ ∗ stg c cc0_stg0_0 (xstg m c) ∗ stg c cc0_stg1_0 (gath m c))

end Cert.Kernel.Gather

end
-- ==== Proof.BitsBody.lean ====
/-
  The all-gather's body on one device: from the ghost state and the two staging buffers to the four own
  semaphores back at zero, the device's block unchanged and the gathered array in the result's staging buffer.

  The result buffer is cut into its four chunks at once. The two chunks of the partner's half go to the partner
  with the signal; the device's own two are loaded, stored over with its block's rows in the narrower format, and
  sent, each into the same rows of the partner's buffer, which came with the partner's signal. The four waits bring
  back the two own chunks (their sources read) and the partner's two (landed), every one holding its part of the
  gathered buffer, and the four are one buffer again.
-/
import proofs.«900665_g7700000000000666_dist_ag_v7x_xyz2x2x2_y_m256_n256_bf16_1_alg».proof.Proof.BitsData

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result buffer as its four chunks -/

omit [FloatOps F] in
theorem cover_eq (c : Dev nD) (f : Buf (Elt F) ((c : Thread nD τ).loc cc0_stg1_0)) :
    (((c : Thread nD τ).loc cc0_stg1_0) ↦{fullShare} f : sProp 𝕄)
      = ((c : Thread nD τ).loc cc0_stg1_0) ↦[((sl c 0).view.set ∪ (sl c 1).view.set) ∪ ((sl (peer c) 0).view.set ∪ (sl (peer c) 1).view.set)]{fullShare} f :=
  congrArg (fun S => (((c : Thread nD τ).loc cc0_stg1_0) ↦[S]{fullShare} f : sProp 𝕄)) (sl_cover c)

omit [FloatOps F] in
theorem split4 (c : Dev nD) (f : Buf (Elt F) ((c : Thread nD τ).loc cc0_stg1_0)) :
    (((c : Thread nD τ).loc cc0_stg1_0) ↦{fullShare} f : sProp 𝕄)
      ⊢ iprop(slotPts c c 0 f ∗ slotPts c c 1 f ∗ slotPts c (peer c) 0 f ∗ slotPts c (peer c) 1 f) := by
  rw [cover_eq]
  unfold slotPts
  refine (pointsTo_union (ℓ := (c : Thread nD τ).loc cc0_stg1_0) (q := fullShare) (f := f) (half_disj c)).1.trans
    ((BIClass.sep_mono (pointsTo_union (ℓ := (c : Thread nD τ).loc cc0_stg1_0) (q := fullShare) (f := f) (sl_disj c)).1
      (pointsTo_union (ℓ := (c : Thread nD τ).loc cc0_stg1_0) (q := fullShare) (f := f) (sl_disj (peer c))).1).trans ?_)
  iintro ⟨⟨H0, H1⟩, ⟨H2, H3⟩⟩
  isplitl [H0]; · iexact H0
  isplitl [H1]; · iexact H1
  isplitl [H2]; · iexact H2
  iexact H3

omit [FloatOps F] in
theorem join4 (c : Dev nD) (f : Buf (Elt F) ((c : Thread nD τ).loc cc0_stg1_0)) :
    iprop(slotPts c c 0 f ∗ slotPts c c 1 f ∗ slotPts c (peer c) 0 f ∗ slotPts c (peer c) 1 f)
      ⊢ (((c : Thread nD τ).loc cc0_stg1_0) ↦{fullShare} f : sProp 𝕄) := by
  rw [cover_eq]
  unfold slotPts
  refine (show _ ⊢ iprop(((((c : Thread nD τ).loc cc0_stg1_0) ↦[(sl c 0).view.set]{fullShare} f) ∗ (((c : Thread nD τ).loc cc0_stg1_0) ↦[(sl c 1).view.set]{fullShare} f))
      ∗ ((((c : Thread nD τ).loc cc0_stg1_0) ↦[(sl (peer c) 0).view.set]{fullShare} f) ∗ (((c : Thread nD τ).loc cc0_stg1_0) ↦[(sl (peer c) 1).view.set]{fullShare} f)) : sProp 𝕄) from ?_).trans
    ((BIClass.sep_mono (pointsTo_union (ℓ := (c : Thread nD τ).loc cc0_stg1_0) (q := fullShare) (f := f) (sl_disj c)).2
      (pointsTo_union (ℓ := (c : Thread nD τ).loc cc0_stg1_0) (q := fullShare) (f := f) (sl_disj (peer c))).2).trans
    (pointsTo_union (ℓ := (c : Thread nD τ).loc cc0_stg1_0) (q := fullShare) (f := f) (half_disj c)).2)
  iintro ⟨H0, H1, H2, H3⟩
  isplitl [H0 H1]
  · isplitl [H0]; · iexact H0
    iexact H1
  · isplitl [H2]; · iexact H2
    iexact H3

/-! ## The stores' rectangles are the chunks -/

theorem off1_eq (c : Dev nD) : k0_off1 c = k0_off2 c (BitVec.ofNat 32 (128 * (0 : Fin 2).val)) := by
  rw [k0_off1_eq, k0_off2_eq c 0]; funext a; fin_cases a <;> simp
theorem off3_eq (c : Dev nD) : k0_off3 c = k0_off2 c (BitVec.ofNat 32 (128 * (1 : Fin 2).val)) := by
  rw [k0_off3_eq, k0_off2_eq c 1]; funext a; fin_cases a <;> simp

theorem rect_congr {off off' : Fin 2 → Nat} (h : off = off') (inb : ∀ a, off a + S128x256.size a ≤ S512x256.size a)
    (inb' : ∀ a, off' a + S128x256.size a ≤ S512x256.size a) :
    Rect.unit (s := S512x256) off S128x256.size inb = Rect.unit (s := S512x256) off' S128x256.size inb' := by
  subst h; rfl

/-- The first store's rectangle is chunk 0 of the own half, the second's chunk 1. -/
abbrev st1 (c : Dev nD) : Rect S512x256 := Rect.unit (s := S512x256) (k0_off1 c) S128x256.size (k0_off1_inb c)
abbrev st3 (c : Dev nD) : Rect S512x256 := Rect.unit (s := S512x256) (k0_off3 c) S128x256.size (k0_off3_inb c)

theorem st1_set (c : Dev nD) : (oM.access (st1 c)).set = (sl c 0).view.set :=
  (View.set_slice_whole _ _).trans ((congrArg (fun r : Rect S512x256 => r.set) (rect_congr (off1_eq c) _ _)).trans (sl_set c 0).symm)
theorem st3_set (c : Dev nD) : (oM.access (st3 c)).set = (sl c 1).view.set :=
  (View.set_slice_whole _ _).trans ((congrArg (fun r : Rect S512x256 => r.set) (rect_congr (off3_eq c) _ _)).trans (sl_set c 1).symm)

theorem write_congr_off {off off' : Fin 2 → Nat} (h : off = off') (inb : ∀ a, off a + S128x256.size a ≤ S512x256.size a)
    (inb' : ∀ a, off' a + S128x256.size a ≤ S512x256.size a) (f : (cc0_stg1_0 : Ref sig .tc).ty.Contents (Elt F)) (w : S128x256.Idx → Elt F .bf16) :
    (oM.access (Rect.unit (s := S512x256) off S128x256.size inb)).write (Elt F) f w Finset.univ
      = (oM.access (Rect.unit (s := S512x256) off' S128x256.size inb')).write (Elt F) f w Finset.univ := by
  subst h; rfl

/-- After its store a chunk of the own half agrees with the gathered buffer. -/
theorem stored0 (c : Dev nD) (f : (cc0_stg1_0 : Ref sig .tc).ty.Contents (Elt F)) :
    ∀ i ∈ (sl c 0).view.set, (oM.access (st1 c)).write (Elt F) f (k0_pay1 (half m c 0)) Finset.univ i = gath m c i := by
  intro i hi
  rw [write_congr_off (off1_eq c) (k0_off1_inb c) (k0_off2_inb c 0)]
  exact stored_congr m c c (srcDev_self c) 0 f i hi
theorem stored1 (c : Dev nD) (f : (cc0_stg1_0 : Ref sig .tc).ty.Contents (Elt F)) :
    ∀ i ∈ (sl c 1).view.set, (oM.access (st3 c)).write (Elt F) f (k0_pay2 (half m c 1)) Finset.univ i = gath m c i := by
  intro i hi
  rw [write_congr_off (off3_eq c) (k0_off3_inb c) (k0_off2_inb c 1)]
  exact stored_congr m c c (srcDev_self c) 1 f i hi

/-- The semaphores the body names, as the cells name them. -/
theorem sem_send0 : ((SemArray.slice cc0_scratch0 (Rect.unit (s := S2) ![0] ![1] Facts₀.inb_S2_S1_0)).squeeze S_ Facts₀.squeezes_S1_S_).sem = sendS 0 := rfl
theorem sem_send1 : ((SemArray.slice cc0_scratch0 (Rect.unit (s := S2) ![1] ![1] Facts₀.inb_S2_S1_1)).squeeze S_ Facts₀.squeezes_S1_S_).sem = sendS 1 := rfl
theorem sem_recv0 : ((SemArray.slice cc0_scratch1 (Rect.unit (s := S2) ![0] ![1] Facts₀.inb_S2_S1_0)).squeeze S_ Facts₀.squeezes_S1_S_).sem = recvS 0 := rfl
theorem sem_recv1 : ((SemArray.slice cc0_scratch1 (Rect.unit (s := S2) ![1] ![1] Facts₀.inb_S2_S1_1)).squeeze S_ Facts₀.squeezes_S1_S_).sem = recvS 1 := rfl

/-- A chunk of the own half, named through the store's rectangle and back. -/
theorem to_st1 (c : Dev nD) (f : Buf (Elt F) ((c : Thread nD τ).loc cc0_stg1_0)) :
    (slotPts c c 0 f : sProp 𝕄) ⊢ ((oM.access (st1 c)).loc (c : Thread nD τ) ↦[(sl c 0).view.set]{fullShare} f) := Entails.of_eq rfl
theorem to_st3 (c : Dev nD) (f : Buf (Elt F) ((c : Thread nD τ).loc cc0_stg1_0)) :
    (slotPts c c 1 f : sProp 𝕄) ⊢ ((oM.access (st3 c)).loc (c : Thread nD τ) ↦[(sl c 1).view.set]{fullShare} f) := Entails.of_eq rfl
theorem from_st1 (c : Dev nD) (f : Buf (Elt F) ((c : Thread nD τ).loc cc0_stg1_0)) :
    ((oM.access (st1 c)).loc (c : Thread nD τ) ↦[(sl c 0).view.set]{fullShare} ((oM.access (st1 c)).write (Elt F) f (k0_pay1 (xM.view.readAt (Elt F) (Rect.unit (s := S256x256) ![0, 0] ![128, 256] Facts₀.inb_S256x256_S128x256_0_0).toLoadRect (xstg m c))) Finset.univ) : sProp 𝕄)
      ⊢ slotPts c c 0 (gath m c) := Entails.of_eq (pointsTo_congr (stored0 m c f))
theorem from_st3 (c : Dev nD) (f : Buf (Elt F) ((c : Thread nD τ).loc cc0_stg1_0)) :
    ((oM.access (st3 c)).loc (c : Thread nD τ) ↦[(sl c 1).view.set]{fullShare} ((oM.access (st3 c)).write (Elt F) f (k0_pay2 (xM.view.readAt (Elt F) (Rect.unit (s := S256x256) ![128, 0] ![128, 256] Facts₀.inb_S256x256_S128x256_128_0).toLoadRect (xstg m c))) Finset.univ) : sProp 𝕄)
      ⊢ slotPts c c 1 (gath m c) := Entails.of_eq (pointsTo_congr (stored1 m c f))

/-- The two chunks of the partner's half make the payload of the signal to the partner. -/
theorem bar_pay_intro (c : Dev nD) (f : Buf (Elt F) ((c : Thread nD τ).loc cc0_stg1_0)) :
    iprop(slotPts c (peer c) 0 f ∗ slotPts c (peer c) 1 f) ⊢ ((sched m).payload (barCell (peer c)) 0 () : sProp 𝕄) := by
  rw [payload_bar]; unfold barPay; rw [peer_peer]
  iintro ⟨H0, H1⟩
  isplitl [H0]; · iexists f; iexact H0
  iexists f; iexact H1

/-! ## The transfer of one chunk -/

theorem mem_bar (c : Dev nD) : () ∈ (sched (F := F) m).duties (barCell c) 0 := by
  rw [duties_bar]; exact Finset.mem_singleton_self _
theorem mem_send (c : Dev nD) (k : Fin 2) : () ∈ (sched (F := F) m).duties (sendCell c k) 0 := by
  rw [duties_send]; exact Finset.mem_singleton_self _
theorem mem_recv (c : Dev nD) (k : Fin 2) : () ∈ (sched (F := F) m).duties (recvCell c k) 0 := by
  rw [duties_recv]; exact Finset.mem_singleton_self _

/-- The transfer of chunk `k` to `n`, the partner (substituted, not rewritten): the source chunk holds its part of the
    gathered buffer, the destination chunk (the same rows of the partner's buffer) anything; the send cell's duty is
    paid with the source, the partner's receive cell's with the destination as it will be: its part of the gathered
    buffer, the same function on both devices. -/
theorem wp_send_chunk (c n : Dev nD) (hn : n = peer c) (k : Fin 2) (κs κr : ℕ)
    {hsc : (sl c k : Memref sig (Dev.tc n : Thread nD τ).2.kind .vmem S128x256 .bf16).view.ref.isScScratch = false}
    {hsrc : (sl c k : Memref sig .tc .vmem S128x256 .bf16).view.WordExact} {hdst : (sl c k : Memref sig .tc .vmem S128x256 .bf16).view.WordExact}
    {hsem : DmaTarget.Typed .vmem (.dma (recvS k)) (.remote (Dev.tc n : Thread nD τ) (sl c k : Memref sig .tc .vmem S128x256 .bf16) (.dma (sendS k)) hsc)}
    {α : Type} {Q : α → sProp 𝕄} {kont : PUnit → Prog (TpuEff nD τ sig (Elt F) Λ₀ .tc) α}
    (fn : Buf (Elt F) ((sl c k).view.loc (peer c : Thread nD τ))) (O₀' O : CellTallies nD τ sig Unit)
    (hO : O₀' = O + tallyAt (recvCell (peer c) k) () N) (W : Waits sig Unit) :
    iprop(cellInv ER (sched m) κs (sendCell c k) ∗ cellInv ER (sched m) κr (recvCell (peer c) k)
        ∗ slotPts c c k (gath m c) ∗ slotPts (peer c) c k fn
        ∗ owes (c : Thread nD τ) O₀' W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl c k) (.remote (Dev.tc n : Thread nD τ) (sl c k) (.dma (sendS k)) hsc) (.dma (recvS k)) hsrc hdst hsem) kont) Q) := by
  subst hn
  unfold slotPts
  exact Rounds.wp_send_pointsTo 𝒱₀ ER (sched m) (c : Thread nD τ) none (κ₁ := κs) (κ₂ := κr)
    (r₁ := 0) (r₂ := 0) (d₁ := ()) (d₂ := ()) (fd := fn)
    (mem_send m c k) (mem_recv m (peer c) k)
    () () N rfl (amount_send m c k ()) (amount_recv m (peer c) k ()) O hO (W := W)
    (by rw [payload_send]; exact BI.Entails.refl _)
    (by rw [payload_recv]; unfold recvPay slotPts; rw [peer_peer, gath_peer]
        exact Entails.of_eq (pointsTo_congr (copied_congr m c c k fn)))

/-! ## The body -/

section Body

variable (K : Dev nD × Fin 5 → ℕ)

set_option maxHeartbeats 1600000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  simp only [sem_send0, sem_send1, sem_recv0, sem_recv1]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1,
      HtBP, HtR0P, HtR1P, HtS0, HtS1⟩, HcB, HcR0, HcR1, #Hlev⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  -- the result buffer in its four chunks
  ihave H4 := (split4 c g1) $$ Hout
  icases H4 with ⟨Hc0, Hc1, Hp0, Hp1⟩
  -- the signal to the partner's barrier cell, with the two chunks of the partner's half
  iapply (Rounds.wp_signal 𝒱₀ ER (sched m) (c : Thread nD τ) none (dst := (peer c : Thread nD τ)) (κ := K (peer c, 0))
      (d := ()) (mem_bar m (peer c)) ((amount_bar m (peer c) ()).trans (by decide)) () (O₁ c) rfl)
    $$ [HO HtBP Hp0 Hp1]
  · isplitr; · iexact HIbarP
    isplitl [HO]; · iexact HO
    isplitl [HtBP]; · iexact HtBP
    isplitl [Hp0 Hp1]
    · iapply (bar_pay_intro m c g1)
      isplitl [Hp0]; · iexact Hp0
      iexact Hp1
    · iexact HrBP
  iintro HO
  -- rows 0..128 of the block, loaded; chunk 0 of the own half loaded, then stored over
  iapply (wp_load 𝒱₀ (c : Thread nD τ) none Set.univ (m := xM) (Finset.subset_univ _)) $$ Hx; iintro Hx
  ihave Hc0 := (to_st1 c g1) $$ Hc0
  iapply (wp_load_rect 𝒱₀ (c : Thread nD τ) none Set.univ (m := oM) (r := st1 c) (S := (sl c 0).view.set) (st1_set c).subset) $$ Hc0; iintro Hc0
  iapply (wp_store 𝒱₀ (c : Thread nD τ) none Set.univ (m := oM) (r := st1 c) (Mk := Finset.univ) (S := (sl c 0).view.set)
    (by rw [View.setOn_univ]; exact (st1_set c).subset)) $$ Hc0; iintro Hc0
  ihave Hc0 := (from_st1 m c g1) $$ Hc0
  -- the wait on the own barrier cell, the two transfers still owed: the partner's two chunks come with it
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by show 0 + _ = (sched m).expect (barCell c) 0; rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn0, Hq0⟩, ⟨%fn1, Hq1⟩⟩
  -- transfer 0
  unfold O₁
  iapply (wp_send_chunk m c _ (dev2_eq c) 0 (K (c, 1)) (K (peer c, 3)) fn0 _ (tallyAt (recvCell (peer c) 1) () N) rfl
      (insert (SemLoc.reg barS, ()) W)) $$ [Hc0 Hq0 HO HtS0 HtR0P]
  · isplitr; · iexact HIs0
    isplitr; · iexact HIr0P
    isplitl [Hc0]; · iexact Hc0
    isplitl [Hq0]; · iexact Hq0
    isplitl [HO]; · iexact HO
    isplitl [HtS0]; · iexact HtS0
    isplitr; · iexact HrS0
    isplitl [HtR0P]; · iexact HtR0P
    iexact HrR0P
  iintro ⟨HcS0, HO⟩
  -- rows 128..256 of the block, loaded; chunk 1 of the own half loaded, then stored over
  iapply (wp_load 𝒱₀ (c : Thread nD τ) none Set.univ (m := xM) (Finset.subset_univ _)) $$ Hx; iintro Hx
  ihave Hc1 := (to_st3 c g1) $$ Hc1
  iapply (wp_load_rect 𝒱₀ (c : Thread nD τ) none Set.univ (m := oM) (r := st3 c) (S := (sl c 1).view.set) (st3_set c).subset) $$ Hc1; iintro Hc1
  iapply (wp_store 𝒱₀ (c : Thread nD τ) none Set.univ (m := oM) (r := st3 c) (Mk := Finset.univ) (S := (sl c 1).view.set)
    (by rw [View.setOn_univ]; exact (st3_set c).subset)) $$ Hc1; iintro Hc1
  ihave Hc1 := (from_st3 m c g1) $$ Hc1
  -- transfer 1
  iapply (wp_send_chunk m c _ (dev3_eq c) 1 (K (c, 2)) (K (peer c, 4)) fn1 _ 0 (zero_add _).symm
      (insert (SemLoc.reg barS, ()) W)) $$ [Hc1 Hq1 HO HtS1 HtR1P]
  · isplitr; · iexact HIs1
    isplitr; · iexact HIr1P
    isplitl [Hc1]; · iexact Hc1
    isplitl [Hq1]; · iexact Hq1
    isplitl [HO]; · iexact HO
    isplitl [HtS1]; · iexact HtS1
    isplitr; · iexact HrS1
    isplitl [HtR1P]; · iexact HtR1P
    iexact HrR1P
  iintro ⟨HcS1, HO⟩
  -- the four waits, nothing owed: receive 0 (the partner's chunk 0 landed), send 0 (the own chunk 0 back), receive 1, send 1
  iapply (Rounds.wp_wait_rest_token 𝒱₀ ER (sched m) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by show 0 + _ = (sched m).expect (recvCell c 0) 0; rw [Nat.zero_add, expect_recv])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hr0 := (Entails.of_eq (rest_recv m c 0)) $$ Hpay
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma (recvS 0), ()) (insert (SemLoc.reg barS, ()) W)) (R := 0) (m := 0) (T := ∅)
      (by show 0 + _ = (sched m).expect (sendCell c 0) 0; rw [Nat.zero_add, expect_send])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq (rest_send m c 0)) $$ Hpay
  iapply (Rounds.wp_wait_rest_token 𝒱₀ ER (sched m) (c : Thread nD τ) none (κ := K (c, 4))
      (wpE_waitDma2_eq 𝒱₀ (c : Thread nD τ) none Set.univ) (Set.mem_univ _) () (O := 0)
      (W := insert (SemLoc.dma (sendS 0), ()) (insert (SemLoc.dma (recvS 0), ()) (insert (SemLoc.reg barS, ()) W))) (R := 0) (m := 0) (T := ∅)
      (by show 0 + _ = (sched m).expect (recvCell c 1) 0; rw [Nat.zero_add, expect_recv])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hr1 := (Entails.of_eq (rest_recv m c 1)) $$ Hpay
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma (recvS 1), ()) (insert (SemLoc.dma (sendS 0), ()) (insert (SemLoc.dma (recvS 0), ()) (insert (SemLoc.reg barS, ()) W)))) (R := 0) (m := 0) (T := ∅)
      (by show 0 + _ = (sched m).expect (sendCell c 1) 0; rw [Nat.zero_add, expect_send])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq (rest_send m c 1)) $$ Hpay
  -- the four own cells close: their counters at zero are the core's again
  imod (Rounds.cell_close ER (sched m) (Set.mem_univ (K (c, 1))) (fun h => h) (R := 0 + 1) (duties_later m (sendCell c 0))) $$ [HatS0] with HzS0
  · isplitr; · iexact HIs0
    iexact HatS0
  imod (Rounds.cell_close ER (sched m) (Set.mem_univ (K (c, 2))) (fun h => h) (R := 0 + 1) (duties_later m (sendCell c 1))) $$ [HatS1] with HzS1
  · isplitr; · iexact HIs1
    iexact HatS1
  imod (Rounds.cell_close ER (sched m) (Set.mem_univ (K (c, 3))) (fun h => h) (R := 0 + 1) (duties_later m (recvCell c 0))) $$ [HatR0] with HzR0
  · isplitr; · iexact HIr0
    iexact HatR0
  imod (Rounds.cell_close ER (sched m) (Set.mem_univ (K (c, 4))) (fun h => h) (R := 0 + 1) (duties_later m (recvCell c 1))) $$ [HatR1] with HzR1
  · isplitr; · iexact HIr1
    iexact HatR1
  rw [wp_ret]; imodintro
  iapply Hk
  unfold bodyPost Φ₁ Dat.owesAt Pipeline.owesWithin
  rw [show (dats m 0 c).owed t₀.succ = 0 from rfl]
  isplitl [HzS0 HzS1 HzR0 HzR1]
  · isplitl [HzS0]; · iexact HzS0
    isplitl [HzS1]; · iexact HzS1
    isplitl [HzR0]; · iexact HzR0
    iexact HzR1
  isplitl [HO]
  · iexists (insert (SemLoc.dma (sendS 1), ()) (insert (SemLoc.dma (recvS 1), ()) (insert (SemLoc.dma (sendS 0), ()) (insert (SemLoc.dma (recvS 0), ()) (insert (SemLoc.reg barS, ()) W)))))
    isplitr; · ipureintro; exact fun _ _ => Or.inl trivial
    iexact HO
  isplitl [Hx]
  · iexists _; isplitr; · (ipureintro; rfl)
    iexact Hx
  iexists (gath m c); isplitr; · (ipureintro; rfl)
  iapply (join4 c (gath m c))
  unfold sendPay recvPay
  isplitl [Hs0]; · iexact Hs0
  isplitl [Hs1]; · iexact Hs1
  isplitl [Hr0]; · iexact Hr0
  iexact Hr1

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m c)
  unfold bodyPre' Φ₀ start
  iintro ⟨⟨⟨%K, Hg⟩, Hrest⟩, Ho, Hx, Hout⟩
  iapply (sound_body m K c fun _ => bodyPost m c)
  unfold bodyPre
  isplitr []
  · isplitl [Hg Hrest]
    · isplitl [Hg]; · iexact Hg
      iexact Hrest
    isplitl [Ho]; · iexact Ho
    isplitl [Hx] <;> iassumption
  · iintro H; iexact H

/-- info: 'Cert.Kernel.Gather.body_obligation' depends on axioms: [propext, Classical.choice, Quot.sound] -/
#guard_msgs in #print axioms body_obligation

end Body

end Cert.Kernel.Gather

end
-- ==== Proof.BitsLaunch.lean ====
/-
  The all-gather's launch: from each device's body, proved from its ghost state, to the run of the whole mesh.

  The launch element is split between the pipeline's staging cells and the protocol's forty cells (five a device);
  the protocol's half is dealt to the devices, each getting the round state, the position, the reached-mark and the
  duty token of its own five cells. One update for all devices at once then closes every cell's invariant over its
  semaphore at zero — a device's four own semaphores, and its barrier semaphore, which is the runtime's and comes
  with the unscoped ones — and hands every token to the device that pays its duty: a barrier cell's and the two
  receive cells' tokens to the partner, the two send cells' tokens stay. What the devices owe at launch comes back
  as credit: every device owes its partner one barrier unit and two chunks' credit, so every device gets just that.
-/
import proofs.«900665_g7700000000000666_dist_ag_v7x_xyz2x2x2_y_m256_n256_bf16_1_alg».proof.Proof.BitsData

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens as finite sets; the launch element -/

theorem ownSemFacts : Pipeline.OwnSemFacts cfg0.spec osem := by decide

theorem share_eq (c : Dev nD) (w : Fin cfg0.W) : (dats m 0 c).share w = fullShare := by unfold Dat.share; split <;> rfl

theorem role_injective : Function.Injective role := by
  intro a b h
  fin_cases a <;> fin_cases b <;> first | rfl | exact absurd h (by decide)

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : roleSem (role k) = roleSem (role k') := congrArg Prod.snd h
  have : k = k' := role_injective (roleSem_injective h2)
  subst this; rfl

/-- The protocol's cells: five a device. -/
def protoCells : Finset (GSem nD τ sig) := Finset.univ.map ⟨kcell, kcell_injective⟩

/-- A cell's one duty token as minted: round 0, the one duty. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def protoToks : Finset (GSem nD τ sig × ℕ × Unit) := Finset.univ.map ⟨tokOf, tokOf_injective⟩

/-- The launch element: the pipeline's staging cells and their tokens; the protocol's cells and theirs. -/
def u₀ : UU :=
  (initOf (Pipeline.cells cfgs cellOf_inj) (Pipeline.launchToks cfgs cellOf_inj), initOf protoCells protoToks)

/-- The duty tokens of device `c`'s own five cells. -/
def toks (c : Dev nD) : sProp 𝕄 :=
  iprop(dutyTok ER (barCell c) 0 () ∗ dutyTok ER (sendCell c 0) 0 () ∗ dutyTok ER (sendCell c 1) 0 ()
    ∗ dutyTok ER (recvCell c 0) 0 () ∗ dutyTok ER (recvCell c 1) 0 ())

/-- What the launch element deals device `c`: of its five cells the round state at counter zero, the position and the
    reached-mark at round 0, and the duty token. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the update over all devices makes of it: the ghost state the body starts from, at some names. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 5 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin5]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The update over all devices -/

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (recvCell c 0) 0 ∗ semVal (recvCell c 1) 0) := by
  rw [Pipeline.ownSems0_eq_of_list c osem [0, 1, 2, 3] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HR0, HR1⟩, HB⟩
  isplitl [HB]; · iexact HB
  isplitl [HS0]; · iexact HS0
  isplitl [HS1]; · iexact HS1
  isplitl [HR0]; · iexact HR0
  iexact HR1

/-- One device's share: its five semaphores at zero and its five round states close its five cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may keep a copy of: all forty invariants under their names, and that every cell has reached round 0. -/
def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` pays: its partner's barrier duty, its partner's two receive duties, its own two
    send duties. -/
def payToks (c : Dev nD) : sProp 𝕄 :=
  iprop(dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())
/-- What stays with device `c` alone: its positions in its five cells, and those tokens. -/
def linear (c : Dev nD) : sProp 𝕄 :=
  iprop((atPos ER (barCell c) 0 ∅ 0 ∗ atPos ER (sendCell c 0) 0 ∅ 0 ∗ atPos ER (sendCell c 1) 0 ∅ 0
      ∗ atPos ER (recvCell c 0) 0 ∅ 0 ∗ atPos ER (recvCell c 1) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaR0, HaR1⟩, HtB, HtR0, HtR1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtB]; · iexact HtB
  isplitl [HtR0]; · iexact HtR0
  isplitl [HtR1]; · iexact HtR1
  isplitl [HtS0]; · iexact HtS0
  iexact HtS1

omit [FloatOps F] in
/-- The tokens dealt to their payers: a barrier cell's token and the two receive cells' tokens go to the partner (the
    partner map is its own inverse, so summing over the devices or over their partners is the same), the send cells' stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c 0) 0 () : sProp 𝕄)),
    bigSep_univ_equiv pairing (fun c : Dev nD => (dutyTok ER (recvCell c 1) 0 () : sProp 𝕄))]
  iintro ⟨HB, HS0, HS1, HR0, HR1⟩
  isplitl [HB]; · iexact HB
  isplitl [HR0]; · iexact HR0
  isplitl [HR1]; · iexact HR1
  isplitl [HS0]; · iexact HS0
  iexact HS1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5]; rfl)))
    isplitl [Hat]; · iexact Hat
    iexact Htk

/-- The update over all devices at once: every device's own AND unscoped semaphores with what the launch element dealt it. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owes its partner one barrier unit and a chunk's credit on each receive cell; the partner map being a
    bijection of the devices, every device is dealt exactly the credit of its own three waits that others pay. -/
theorem creds (c : Dev nD) :
    (Pipeline.launchCred O₀ c : sProp 𝕄)
      ⊢ iprop(cred (tallyAt (barCell c) () 1) ∗ cred (tallyAt (recvCell c 0) () N) ∗ cred (tallyAt (recvCell c 1) () N)) := by
  rw [show (O₀ : Dev nD → CellTallies nD τ sig Unit)
      = fun d => (tallyAt (recvCell (peer d) 1) () N + tallyAt (recvCell (peer d) 0) () N) + tallyAt (barCell (peer d)) () 1 from rfl,
    Pipeline.launchCred_add (fun d => tallyAt (recvCell (peer d) 1) () N + tallyAt (recvCell (peer d) 0) () N) (fun d => tallyAt (barCell (peer d)) () 1),
    Pipeline.launchCred_add (fun d => tallyAt (recvCell (peer d) 1) () N) (fun d => tallyAt (recvCell (peer d) 0) () N)]
  iintro ⟨⟨H1, H0⟩, HB⟩
  isplitl [HB]; · iapply (Pipeline.launchCred_tallyAt (.reg barS) peer peer peer_peer peer_peer () 1 c); iexact HB
  isplitl [H0]; · iapply (Pipeline.launchCred_tallyAt (.dma (recvS 0)) peer peer peer_peer peer_peer () N c); iexact H0
  iapply (Pipeline.launchCred_tallyAt (.dma (recvS 1)) peer peer peer_peer peer_peer () N c); iexact H1

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H0, H1⟩
  imodintro
  unfold start G'
  isplitl
  · isplitl [HG]; · iexact HG
    isplitl [HB]; · iexact HB
    isplitl [H0]; · iexact H0
    isplitl [H1]; · iexact H1
    iexact Hlev
  · iempintro

/-- There is no scoped buffer besides the staging buffers: the invariant before the point is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

/-- After the point the four own semaphores are back at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨HS0, HS1, HR0, HR1⟩
  isplitr; · iempintro
  isplitl
  · isplitl [HS0]; · iexact HS0
    isplitl [HS1]; · iexact HS1
    isplitl [HR0]; · iexact HR0
    iexact HR1
  · iempintro

/-- The pipeline's own waits are on its staging semaphores, which lie at level 0, below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> first | rfl | decide) _ (by
      rcases t with ⟨_ | _, ht⟩
      · exact Or.inl rfl
      · exact Or.inr rfl)

/-! ## The run -/

set_option maxRecDepth 8000 in
/-- At the compiled mesh of eight devices, for any float values, from any memory with zero counters, given each
    device's body: every weakly fair execution of @main terminates, and every final state has each window's array at
    what the proof data computes for it. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is an input window's: never written back, it ends as it was launched. -/
theorem finalA_x (c : Dev nD) : (dats m 0 c).arrAt (0 : Fin 2) cfg0.N = m ((c : Thread nD τ).loc main_arg0) :=
  (dats (F := F) m 0 c).arrAt_in (0 : Fin 2) rfl _

theorem finalA_o (c : Dev nD) : (dats m 0 c).arrAt (1 : Fin 2) cfg0.N = gath m c := by
  rw [show cfg0.N = (t₀ : Fin cfg0.N).val + 1 from rfl, (dats m 0 c).arrAt_succ (1 : Fin 2) t₀, flush0_1, if_pos rfl]
  funext i
  have he : ((cfg0.win (1 : Fin 2)).blk t₀).view.emb i = i :=
    funext fun a => Fin.ext (Pipeline.Window.rect_emb_val_of_index_zero win0_1 t₀ a rfl i)
  exact (congrArg _ he.symm).trans
    ((View.write_emb_of_mem (v := ((cfg0.win (1 : Fin 2)).blk t₀).view) _ _ (Finset.mem_univ i)).trans (cast_eq _ _))

/-! ## The run, read at the two arrays -/

/-- The run with its values named: every final state has, on every device, the result array at the gathered buffer and
    the argument array as it was launched. -/
theorem run_val (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, r.2.mem ((c.tc : Thread nD τ).loc main_v1) = gath m c
        ∧ r.2.mem ((c.tc : Thread nD τ).loc main_arg0) = m ((c.tc : Thread nD τ).loc main_arg0)) :=
  (θ_run defs _ _).mono (fun _ h c => ⟨(h c (1 : Fin 2)).trans (finalA_o m c), (h c (0 : Fin 2)).trans (finalA_x m c)⟩) (run_main m hbody ρ)

/-- info: 'Cert.Kernel.Gather.run_val' depends on axioms: [propext, Classical.choice, Quot.sound] -/
#guard_msgs in #print axioms run_val

end Cert.Kernel.Gather

end
-- ==== Proof.Value.lean ====
/-
  The value: the gathered buffer is the whole array in the narrower float format, which is what the one-device
  program computes.

  Row `i` of the gathered buffer comes from the device of the pair whose second mesh coordinate is `(i / 256) % 2`;
  that device holds block `(i / 256) % 2` of the array, and row `128 ((i / 128) % 2) + i % 128 = i % 256` of that
  block is row `256 ((i / 256) % 2) + i % 256 = i` of the array (`i < 512`); the column is kept. With floats the
  extended reals, a change of float format is the identity, so nothing but this index equation is left.
-/
import proofs.«900665_g7700000000000666_dist_ag_v7x_xyz2x2x2_y_m256_n256_bf16_1_alg».proof.Proof.Contents
import proofs.«900665_g7700000000000666_dist_ag_v7x_xyz2x2x2_y_m256_n256_bf16_1_alg».proof.Proof.Gen.ReferenceIdeal.Run
import proofs.«900665_g7700000000000666_dist_ag_v7x_xyz2x2x2_y_m256_n256_bf16_1_alg».proof.Proof.Gen.ReferenceIdeal.Read
import proofs.«900665_g7700000000000666_dist_ag_v7x_xyz2x2x2_y_m256_n256_bf16_1_alg».proof.Proof.Gen.Pre_finite_inputs_ReferenceIdeal
import proofs.«900665_g7700000000000666_dist_ag_v7x_xyz2x2x2_y_m256_n256_bf16_1_alg».proof.Defs
import Idealize.ShloMosaic.Lib.Layout
import Idealize.ShloMosaic.Lib.ValueIdx
import Idealize.ShloMosaic.PureOps.Ideal

noncomputable section

namespace Cert.KernelIdeal.GatherValue

open Cert.KernelIdeal Cert.KernelIdeal.Gen Cert.KernelIdeal.Gather
open Idealize.ShloMosaic Idealize.ShloMosaic.TcCoe Idealize.SL.Sem

variable (m : (ℓ : Loc nD τ sig) → Buf (Elt Ideal) ℓ)
variable (X : (⟨Cert.ReferenceIdeal.S512x256, .f32⟩ : BufTy).Contents (Elt Ideal))

/-! ## The devices -/

/-- Of a device and its partner, the one chosen for half `h` has second mesh coordinate `h`. -/
theorem yv_srcDev : ∀ (c : Dev nD) (h : Fin 2), yv (srcDev c h) = h.val := by decide

/-- The block of the array a device holds: along the rows the one its second mesh coordinate names, along the
    columns the only one. -/
theorem meshBlock_row : ∀ d : Dev nD, ((Layout.meshBlock [2, 2, 2] ![[1], []] d) 0).val = yv d := by decide
theorem meshBlock_col : ∀ d : Dev nD, ((Layout.meshBlock [2, 2, 2] ![[1], []] d) 1).val = 0 := by decide

/-! ## What a device stores, at an index -/

/-- The staging buffer holds the device's block as it is: the window is the whole block, at block index zero. -/
theorem xstg_apply (d : Dev nD) (j : S256x256.Idx) :
    xstg (F := Ideal) m d j = m ((d.tc : Thread nD τ).loc main_arg0) j := by
  show m ((d.tc : Thread nD τ).loc main_arg0) ((win0_0.rect (0 : Fin 1)).emb j) = _
  refine congrArg (m ((d.tc : Thread nD τ).loc main_arg0)) (funext fun a => Fin.ext ?_)
  exact Pipeline.Window.rect_emb_val_of_index_zero win0_0 (0 : Fin 1) a rfl j

/-- Rows `128 k` to `128 k + 128` of the block, read where the rectangle puts them. -/
theorem half_apply (d : Dev nD) (k : Fin 2) (x : S128x256.Idx) :
    half (F := Ideal) m d k x = xstg (F := Ideal) m d ((xrect k).emb x) := rfl

/-- The stored value is the value read: the reshape to the same shape and the change of format are the identity. -/
theorem pay_apply (d : Dev nD) (k : Fin 2) (x : S128x256.Idx) :
    Gather.pay (F := Ideal) m d k x = half (F := Ideal) m d k x := by
  unfold Gather.pay k0_pay1
  exact (ValueIdx.truncf_apply (ψ := .bf16) (φ := .f32)
      (shapeCast S128x256 (half (F := Ideal) m d k) shapeCasts_S128x256_S128x256) bitsLt_bf16_f32 x).trans
    (congrFun (shapeCast_self _ _) x)

/-- Where an index of the chunk lies in the block: `128 k` rows further down, the column the same. -/
theorem xrect_row (k : Fin 2) (x : S128x256.Idx) :
    (((xrect k).emb x 0 : Fin 256) : Nat) = 128 * k.val + (x 0).val := by
  rw [Rect.emb_apply, Rect.off_unit, Rect.stride_unit]
  show 128 * k.val + 1 * (x 0).val = _
  omega

theorem xrect_col (k : Fin 2) (x : S128x256.Idx) : (((xrect k).emb x 1 : Fin 256) : Nat) = (x 1).val := by
  rw [Rect.emb_apply, Rect.off_unit, Rect.stride_unit]
  show 0 + 1 * (x 1).val = _
  omega

/-! ## From the blocks to the array -/

/-- A device's block at `j` is the array at the index `256 · (its second mesh coordinate)` rows further down. -/
theorem block_apply
    (hX : ∀ c : Dev nD, m ((c.tc : Thread nD τ).loc main_arg0)
      = Layout.blockN ⟨2, ![256, 256]⟩ ⟨2, ![512, 256]⟩ (Layout.meshBlock [2, 2, 2] ![[1], []] c) X)
    (d : Dev nD) (j : S256x256.Idx) (i : S512x256.Idx)
    (hr : rowOf i = 256 * yv d + (j 0).val) (hc : colOf i = (j 1).val) :
    m ((d.tc : Thread nD τ).loc main_arg0) j = X i := by
  refine (congrFun (hX d) j).trans ?_
  rw [Layout.blockN_apply]
  refine congrArg X (funext (Fin.forall_fin_two.mpr ⟨Fin.ext ?_, Fin.ext ?_⟩))
  · rw [Layout.TilesN.idx_val]
    show ((Layout.meshBlock [2, 2, 2] ![[1], []] d) 0).val * 256 + (j 0).val = rowOf i
    rw [meshBlock_row, hr]; omega
  · rw [Layout.TilesN.idx_val]
    show ((Layout.meshBlock [2, 2, 2] ![[1], []] d) 1).val * 256 + (j 1).val = colOf i
    rw [meshBlock_col, hc]; omega

/-- The gathered buffer is the whole array in the narrower format: the one-device program's result. -/
theorem gath_eq
    (hX : ∀ c : Dev nD, m ((c.tc : Thread nD τ).loc main_arg0)
      = Layout.blockN ⟨2, ![256, 256]⟩ ⟨2, ![512, 256]⟩ (Layout.meshBlock [2, 2, 2] ![[1], []] c) X)
    (c : Dev nD) :
    gath (F := Ideal) m c
      = truncf (F := Ideal) (s := Cert.ReferenceIdeal.S512x256) (φ := .f32) .bf16 X
          Cert.ReferenceIdeal.Facts₀.bitsLt_bf16_f32 := by
  funext i
  have hi : rowOf i < 512 := (i 0).isLt
  have hj : colOf i < 256 := (i 1).isLt
  unfold gath
  rw [pay_apply, half_apply, xstg_apply]
  refine (block_apply m X hX _ _ i ?_ ?_).trans (ValueIdx.truncf_apply (ψ := .bf16) (φ := .f32) X _ i).symm
  · rw [yv_srcDev, xrect_row]
    show rowOf i = 256 * ((rowOf i / 256) % 2) + (128 * ((rowOf i / 128) % 2) + rowOf i % 128)
    omega
  · rw [xrect_col]
    show colOf i = colOf i % 256
    omega

/-! ## The one-device program runs and keeps its argument -/

theorem ref_frame : Cert.frame_ReferenceIdeal :=
  fun m ρ _ => (θ_run Cert.ReferenceIdeal.defs _ _).mono (fun _ h c => (h c).2)
    (Cert.ReferenceIdeal.Value.run (F := Ideal) m ρ)

end Cert.KernelIdeal.GatherValue

end
-- ==== Proof.lean ====
/-
  The certificate of the all-gather along the mesh's second axis on eight devices against the one-device change of
  float format.

  Each device's run, at either instance, ends with the gathered array in its result and its argument unchanged:
  the body of one device (the entry handshake with its partner, the two stores and the two transfers of its own
  half, the four waits) under the launch of the whole mesh. The two frames of the kernel are that run with the
  result dropped; no operation of the kernel was rewritten by the ideal pass, so there is nothing to preserve;
  and at the ideal instance the gathered array is, index by index, the whole array in the narrower format,
  which is the one-device program's result.
-/
import proofs.«900665_g7700000000000666_dist_ag_v7x_xyz2x2x2_y_m256_n256_bf16_1_alg».proof.Defs
import proofs.«900665_g7700000000000666_dist_ag_v7x_xyz2x2x2_y_m256_n256_bf16_1_alg».proof.Proof.Gen.Kernel
import proofs.«900665_g7700000000000666_dist_ag_v7x_xyz2x2x2_y_m256_n256_bf16_1_alg».proof.Proof.Gen.KernelIdeal
import proofs.«900665_g7700000000000666_dist_ag_v7x_xyz2x2x2_y_m256_n256_bf16_1_alg».proof.Proof.Gen.ReferenceIdeal
import proofs.«900665_g7700000000000666_dist_ag_v7x_xyz2x2x2_y_m256_n256_bf16_1_alg».proof.Proof.Gen.Pre_finite_inputs_Kernel
import proofs.«900665_g7700000000000666_dist_ag_v7x_xyz2x2x2_y_m256_n256_bf16_1_alg».proof.Proof.Gen.Pre_finite_inputs_ReferenceIdeal
import proofs.«900665_g7700000000000666_dist_ag_v7x_xyz2x2x2_y_m256_n256_bf16_1_alg».proof.Proof.Body
import proofs.«900665_g7700000000000666_dist_ag_v7x_xyz2x2x2_y_m256_n256_bf16_1_alg».proof.Proof.Launch
import proofs.«900665_g7700000000000666_dist_ag_v7x_xyz2x2x2_y_m256_n256_bf16_1_alg».proof.Proof.BitsBody
import proofs.«900665_g7700000000000666_dist_ag_v7x_xyz2x2x2_y_m256_n256_bf16_1_alg».proof.Proof.BitsLaunch
import proofs.«900665_g7700000000000666_dist_ag_v7x_xyz2x2x2_y_m256_n256_bf16_1_alg».proof.Proof.Value
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and keeps its argument
  fun m g _ => (θ_run (Cert.Kernel.defs (F := Bits)) _ _).mono (fun _ h c => (h c).2)
    (Cert.Kernel.Gather.run_val (F := Bits) m (Cert.Kernel.Gather.body_obligation (F := Bits) m) g),
  -- so does the idealized kernel
  fun m g _ => (θ_run (Cert.KernelIdeal.defs (F := Ideal)) _ _).mono (fun _ h c => (h c).2)
    (Cert.KernelIdeal.Gather.run_val (F := Ideal) m (Cert.KernelIdeal.Gather.body_obligation (F := Ideal) m) g),
  -- and the one-device program
  Cert.KernelIdeal.GatherValue.ref_frame,
  trivial,
  -- every device's result is the gathered array, which is the one-device program's result
  fun m g m' g' _ hX => ⟨_,
    (θ_run (Cert.KernelIdeal.defs (F := Ideal)) _ _).mono
      (fun _ h c => ⟨(h c).1.trans (Cert.KernelIdeal.GatherValue.gath_eq m _ hX c), (h c).2⟩)
      (Cert.KernelIdeal.Gather.run_val (F := Ideal) m (Cert.KernelIdeal.Gather.body_obligation (F := Ideal) m) g),
    (θ_run (Cert.ReferenceIdeal.defs (F := Ideal)) _ _).mono (fun _ h => ⟨(h 0).1, (h 0).2⟩)
      (Cert.ReferenceIdeal.Value.run (F := Ideal) m' g')⟩⟩

end Cert.Proof

end
